-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x64 : Shape := ⟨2, ![800000, 64]⟩
abbrev S2x800000 : Shape := ⟨2, ![2, 800000]⟩
abbrev S2x1600000 : Shape := ⟨2, ![2, 1600000]⟩
abbrev S50000 : Shape := ⟨1, ![50000]⟩
abbrev S1600000x64 : Shape := ⟨2, ![1600000, 64]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S1600000x64 : S_.BroadcastsInDim S1600000x64 (![] : Fin 0 → Fin S1600000x64.rank)
  reducesTo_S1600000x64_S_d0_1 : S1600000x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg10 : FVec F S64 .f32) (main_v33 : IVec S_ 1) : IVec S_ 1 :=
  let main_v34 : FVec F S64 .f32 := Host.absf main_arg10
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg7 : FVec F S128x128 .f32) (main_arg8 : FVec F S128 .f32) (main_arg9 : FVec F S128x64 .f32) (main_arg10 : FVec F S64 .f32) (main_v13 : IVec S_ 1) (main_v16 : IVec S1600000x64 1) : IVec S_ 1 :=
  let main_c_5 : IVec S_ 1 := constantI S_ 1 1#1
  let main_v17 : IVec S_ 1 := (fun x v => Host.reduce IntOp.andi x v reducesTo_S1600000x64_S_d0_1 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg9
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg10 main_v33

def fn {F : FTy → Type} [FloatOps F] (main_arg0 : FVec F S50000x64 .f32) (main_arg1 : FVec F S800000x64 .f32) (main_arg2 : IVec S2x800000 32) (main_arg3 : IVec S2x1600000 32) (main_arg4 : IVec S50000 32) (main_arg5 : FVec F S800000x64 .f32) (main_arg6 : FVec F S1600000x64 .f32) (main_arg7 : FVec F S128x128 .f32) (main_arg8 : FVec F S128 .f32) (main_arg9 : FVec F S128x64 .f32) (main_arg10 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S800000x64 .f32 := Host.absf main_arg5
  let main_cst_2 : FVec F S_ .f32 := constant S_ .f32 0x7F800000#32
  let main_v10 : FVec F S800000x64 .f32 := broadcastInDim S800000x64 ![] bcast_S_S800000x64 main_cst_2
  let main_v11 : IVec S800000x64 1 := cmpf .olt main_v9 main_v10
  let main_c_3 : IVec S_ 1 := constantI S_ 1 1#1
  let main_v12 : IVec S_ 1 := (fun x v => Host.reduce IntOp.andi x v reducesTo_S800000x64_S_d0_1 h_S_) main_v11 main_c_3
  let main_v13 : IVec S_ 1 := andi main_v8 main_v12
  let main_v14 : FVec F S1600000x64 .f32 := Host.absf main_arg6
  let main_cst_4 : FVec F S_ .f32 := constant S_ .f32 0x7F800000#32
  let main_v15 : FVec F S1600000x64 .f32 := broadcastInDim S1600000x64 ![] bcast_S_S1600000x64 main_cst_4
  let main_v16 : IVec S1600000x64 1 := cmpf .olt main_v14 main_v15
  fn_part1 (F := F) main_arg7 main_arg8 main_arg9 main_arg10 main_v13 main_v16
-- ==== Kernel.lean ====
abbrev S50000x64 : Shape := ⟨2, ![50000, 64]⟩
abbrev S800000x64 : Shape := ⟨2, ![800000, 64]⟩
abbrev S2x800000 : Shape := ⟨2, ![2, 800000]⟩
abbrev S2x1600000 : Shape := ⟨2, ![2, 1600000]⟩
abbrev S50000 : Shape := ⟨1, ![50000]⟩
abbrev S1600000x64 : Shape := ⟨2, ![1600000, 64]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S1x64 : Shape := ⟨2, ![1, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1605632x128 : Shape := ⟨2, ![1605632, 128]⟩
abbrev S1605632x64 : Shape := ⟨2, ![1605632, 64]⟩
abbrev S8192x128 : Shape := ⟨2, ![8192, 128]⟩
abbrev S8192x64 : Shape := ⟨2, ![8192, 64]⟩
abbrev S1x800000 : Shape := ⟨2, ![1, 800000]⟩
abbrev S800000 : Shape := ⟨1, ![800000]⟩
abbrev S800000x1 : Shape := ⟨2, ![800000, 1]⟩
abbrev S800000x128 : Shape := ⟨2, ![800000, 128]⟩
abbrev S802816x128 : Shape := ⟨2, ![802816, 128]⟩
abbrev S802816x64 : Shape := ⟨2, ![802816, 64]⟩
abbrev S256x64 : Shape := ⟨2, ![256, 64]⟩
abbrev S50000x1 : Shape := ⟨2, ![50000, 1]⟩

abbrev nBuf : Space → Nat
  | .hbm => 69
  | .vmem => 16
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S2x800000, .i32⟩
  | .hbm, ⟨3, _⟩ => ⟨S2x1600000, .i32⟩
  | .hbm, ⟨4, _⟩ => ⟨S50000, .i32⟩
  | .hbm, ⟨5, _⟩ => ⟨S800000x64, .f32⟩
  | .hbm, ⟨6, _⟩ => ⟨S1600000x64, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S128x128, .bf16⟩
  | .hbm, ⟨12, _⟩ => ⟨S128x64, .bf16⟩
  | .hbm, ⟨13, _⟩ => ⟨S1x128, .f32⟩
  | .hbm, ⟨14, _⟩ => ⟨S1x64, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x64, .f32⟩
  | .hbm, ⟨28, _⟩ => ⟨S1600000x128, .f32⟩
  | .hbm, ⟨29, _⟩ => ⟨S_, .i32⟩
  | .hbm, ⟨30, _⟩ => ⟨S_, .f32⟩
  | .hbm, ⟨31, _⟩ => ⟨S1605632x128, .f32⟩
  | .hbm, ⟨32, _⟩ => ⟨S1605632x64, .f32⟩
  | .hbm, ⟨33, _⟩ => ⟨S1600000x64, .f32⟩
  | .hbm, ⟨34, _⟩ => ⟨S_, .f32⟩
  | .hbm, ⟨35, _⟩ => ⟨S800000x64, .f32⟩
  | .hbm, ⟨36, _⟩ => ⟨S1600000x1, .i32⟩
  | .hbm, ⟨37, _⟩ => ⟨S800000x64, .f32⟩
  | .hbm, ⟨38, _⟩ => ⟨S800000x64, .f32⟩
  | .hbm, ⟨39, _⟩ => ⟨S1x800000, .i32⟩
  | .hbm, ⟨40, _⟩ => ⟨S800000, .i32⟩
  | .hbm, ⟨41, _⟩ => ⟨S1x800000, .i32⟩
  | .hbm, ⟨42, _⟩ => ⟨S800000, .i32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x64, .f32⟩
  | .hbm, ⟨52, _⟩ => ⟨S800000x128, .f32⟩
  | .hbm, ⟨53, _⟩ => ⟨S_, .i32⟩
  | .hbm, ⟨54, _⟩ => ⟨S_, .f32⟩
  | .hbm, ⟨55, _⟩ => ⟨S802816x128, .f32⟩
  | .hbm, ⟨56, _⟩ => ⟨S802816x64, .f32⟩
  | .hbm, ⟨57, _⟩ => ⟨S800000x64, .f32⟩
  | .hbm, ⟨58, _⟩ => ⟨S_, .f32⟩
  | .hbm, ⟨59, _⟩ => ⟨S50000x64, .f32⟩
  | .hbm, ⟨60, _⟩ => ⟨S800000x1, .i32⟩
  | .hbm, ⟨61, _⟩ => ⟨S50000x64, .f32⟩
  | .hbm, ⟨62, _⟩ => ⟨S_, .f32⟩
  | .hbm, ⟨63, _⟩ => ⟨S256x64, .f32⟩
  | .hbm, ⟨64, _⟩ => ⟨S50000x1, .i32⟩
  | .hbm, ⟨65, _⟩ => ⟨S256x64, .f32⟩
  | .hbm, ⟨66, _⟩ => ⟨S_, .f32⟩
  | .hbm, ⟨67, _⟩ => ⟨S256x64, .f32⟩
  | .hbm, ⟨68, _⟩ => ⟨S256x64, .f32⟩
  | .local _ .vmem, ⟨0, _⟩ => ⟨S8192x128, .f32⟩
  | .local _ .vmem, ⟨1, _⟩ => ⟨S8192x128, .f32⟩
  | .local _ .vmem, ⟨2, _⟩ => ⟨S128x128, .bf16⟩
  | .local _ .vmem, ⟨3, _⟩ => ⟨S1x128, .f32⟩
  | .local _ .vmem, ⟨4, _⟩ => ⟨S128x64, .bf16⟩
  | .local _ .vmem, ⟨5, _⟩ => ⟨S1x64, .f32⟩
  | .local _ .vmem, ⟨6, _⟩ => ⟨S8192x64, .f32⟩
  | .local _ .vmem, ⟨7, _⟩ => ⟨S8192x64, .f32⟩
  | .local _ .vmem, ⟨8, _⟩ => ⟨S8192x128, .f32⟩
  | .local _ .vmem, ⟨9, _⟩ => ⟨S8192x128, .f32⟩
  | .local _ .vmem, ⟨10, _⟩ => ⟨S128x128, .bf16⟩
  | .local _ .vmem, ⟨11, _⟩ => ⟨S1x128, .f32⟩
  | .local _ .vmem, ⟨12, _⟩ => ⟨S128x64, .bf16⟩
  | .local _ .vmem, ⟨13, _⟩ => ⟨S1x64, .f32⟩
  | .local _ .vmem, ⟨14, _⟩ => ⟨S8192x64, .f32⟩
  | .local _ .vmem, ⟨15, _⟩ => ⟨S8192x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_1 : Ref sig .tc := ⟨.hbm, 29, rfl⟩
abbrev main_call0_v0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_2 : Ref sig .tc := ⟨.hbm, 43, rfl⟩
abbrev main_v27 : Ref sig .tc := ⟨.hbm, 44, rfl⟩
abbrev main_v28 : Ref sig .tc := ⟨.hbm, 45, rfl⟩
abbrev main_c_3 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_4 : Ref sig .tc := ⟨.hbm, 53, rfl⟩
abbrev main_call1_v0 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_5 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_6 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_7 : Ref sig .tc := ⟨.hbm, 66, rfl⟩
abbrev main_v44 : Ref sig .tc := ⟨.hbm, 67, rfl⟩
abbrev main_v45 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![196], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8192x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![98], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8192x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bitsLt_bf16_f32 : FTy.bits .bf16 < FTy.bits .f32
  shapeCasts_S128_S1x128 : S128.ShapeCasts S1x128
  shapeCasts_S64_S1x64 : S64.ShapeCasts S1x64
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x128_d1 : Shape.Concatenates [S1600000x64, S1600000x64] S1600000x128 1
  pads_S1600000x128_S1605632x128_056320_000 : S1600000x128.Pads (![0, 0] : Fin 2 → Nat) ![5632, 0] ![0, 0] S1605632x128
  h_S_ : 0 < S_.numel
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  inb_S8192x64_S8192x64_0_0 : ∀ a, (![0, 0] : Fin 2 → Nat) a + S8192x64.size a ≤ S8192x64.size a
  h_S8192x64 : 0 < S8192x64.numel
  slices_S1605632x64_S1600000x64_0_0 : S1605632x64.Slices ![0, 0] S1600000x64
  bcast_S_S800000x64 : S_.BroadcastsInDim S800000x64 (![] : Fin 0 → Fin S800000x64.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  pads_S800000x128_S802816x128_028160_000 : S800000x128.Pads (![0, 0] : Fin 2 → Nat) ![2816, 0] ![0, 0] S802816x128
  slices_S802816x64_S800000x64_0_0 : S802816x64.Slices ![0, 0] S800000x64
  bcast_S_S50000x64 : S_.BroadcastsInDim S50000x64 (![] : Fin 0 → Fin S50000x64.rank)
  bcast_S_S256x64 : S_.BroadcastsInDim S256x64 (![] : Fin 0 → Fin S256x64.rank)
  bcast_S50000_S50000x1_0 : S50000.BroadcastsInDim S50000x1 (![0] : Fin 1 → Fin S50000x1.rank)
  gather_S800000x64_S1600000x1_S1600000x64_1_0_n_n_0_1_164_wf : GatherDims.WF S800000x64 S1600000x1 S1600000x64 [1] [0] [] [0] [] 1 ![1, 64]
  dot_S8192x128_S128x128_S8192x128_1_0_0_1_n_n_wf : DotDims.WF S8192x128 S128x128 S8192x128 [1] [0] [0] [1] [] []
  dot_S8192x128_S128x64_S8192x64_1_0_0_1_n_n_wf : DotDims.WF S8192x128 S128x64 S8192x64 [1] [0] [0] [1] [] []
  scatter_S800000x64_S1600000x1_S1600000x64_1_0_0_1_wf : ScatterDims.WF S800000x64 S1600000x1 S1600000x64 [1] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S256x64_S50000x1_S50000x64_1_0_0_1_wf : ScatterDims.WF S256x64 S50000x1 S50000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S1605632x128.size a
  hwx0_0 : ∀ i : grid0.Coords, EltTy.bits .f32 = 32 ∨ (Rect.block (s := S1605632x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .bf16 = 32 ∨ (Rect.block (s := S128x64) S128x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8192x64.size a ≤ S1605632x64.size a
  hwx0_5 : ∀ i : grid0.Coords, EltTy.bits .f32 = 32 ∨ (Rect.block (s := S1605632x64) S8192x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S802816x128.size a
  hwx1_0 : ∀ i : grid1.Coords, EltTy.bits .f32 = 32 ∨ (Rect.block (s := S802816x128) S8192x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .bf16 = 32 ∨ (Rect.block (s := S128x128) S128x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .bf16 = 32 ∨ (Rect.block (s := S128x64) S128x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8192x64.size a ≤ S802816x64.size a
  hwx1_5 : ∀ i : grid1.Coords, EltTy.bits .f32 = 32 ∨ (Rect.block (s := S802816x64) S8192x64.size (cc1_transform_5 i) (hinb1_5 i)).WholeWords (EltTy.packing .f32)

variable [Facts₀]

def gather_S800000x64_S1600000x1_S1600000x64_1_0_n_n_0_1_164 : GatherDims S800000x64 S1600000x1 S1600000x64 where
  offsetDims := [1]
  collapsedSliceDims := [0]
  operandBatchingDims := []
  startIndicesBatchingDims := []
  startIndexMap := [0]
  indexVectorDim := 1
  sliceSizes := ![1, 64]
  wf := gather_S800000x64_S1600000x1_S1600000x64_1_0_n_n_0_1_164_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def scatter_S800000x64_S1600000x1_S1600000x64_1_0_0_1 : ScatterDims S800000x64 S1600000x1 S1600000x64 where
  updateWindowDims := [1]
  insertedWindowDims := [0]
  scatterDimsToOperandDims := [0]
  indexVectorDim := 1
  wf := scatter_S800000x64_S1600000x1_S1600000x64_1_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S256x64_S50000x1_S50000x64_1_0_0_1 : ScatterDims S256x64 S50000x1 S50000x64 where
  updateWindowDims := [1]
  insertedWindowDims := [0]
  scatterDimsToOperandDims := [0]
  indexVectorDim := 1
  wf := scatter_S256x64_S50000x1_S50000x64_1_0_0_1_wf

abbrev win0_0 : Pipeline.Window sig grid0 :=
  Pipeline.Window.ofSpec (Memref.whole main_v16) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S8192x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v35) S8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S8192x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x64 : Shape := ⟨2, ![50000, 64]⟩
abbrev S800000x64 : Shape := ⟨2, ![800000, 64]⟩
abbrev S2x800000 : Shape := ⟨2, ![2, 800000]⟩
abbrev S2x1600000 : Shape := ⟨2, ![2, 1600000]⟩
abbrev S50000 : Shape := ⟨1, ![50000]⟩
abbrev S1600000x64 : Shape := ⟨2, ![1600000, 64]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S1x64 : Shape := ⟨2, ![1, 64]⟩
abbrev S1x800000 : Shape := ⟨2, ![1, 800000]⟩
abbrev S800000 : Shape := ⟨1, ![800000]⟩
abbrev S800000x1 : Shape := ⟨2, ![800000, 1]⟩
abbrev S800000x128 : Shape := ⟨2, ![800000, 128]⟩
abbrev S256x64 : Shape := ⟨2, ![256, 64]⟩
abbrev S50000x1 : Shape := ⟨2, ![50000, 1]⟩

abbrev nBuf : Space → Nat
  | .hbm => 77
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S2x800000, .i32⟩
  | .hbm, ⟨3, _⟩ => ⟨S2x1600000, .i32⟩
  | .hbm, ⟨4, _⟩ => ⟨S50000, .i32⟩
  | .hbm, ⟨5, _⟩ => ⟨S800000x64, .f32⟩
  | .hbm, ⟨6, _⟩ => ⟨S1600000x64, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x64, .f32⟩
  | .hbm, ⟨24, _⟩ => ⟨S1600000x128, .f32⟩
  | .hbm, ⟨25, _⟩ => ⟨S1600000x128, .f32⟩
  | .hbm, ⟨26, _⟩ => ⟨S1x128, .f32⟩
  | .hbm, ⟨27, _⟩ => ⟨S1600000x128, .f32⟩
  | .hbm, ⟨28, _⟩ => ⟨S1600000x128, .f32⟩
  | .hbm, ⟨29, _⟩ => ⟨S_, .f32⟩
  | .hbm, ⟨30, _⟩ => ⟨S1600000x128, .f32⟩
  | .hbm, ⟨31, _⟩ => ⟨S1600000x128, .f32⟩
  | .hbm, ⟨32, _⟩ => ⟨S1600000x64, .f32⟩
  | .hbm, ⟨33, _⟩ => ⟨S1x64, .f32⟩
  | .hbm, ⟨34, _⟩ => ⟨S1600000x64, .f32⟩
  | .hbm, ⟨35, _⟩ => ⟨S1600000x64, .f32⟩
  | .hbm, ⟨36, _⟩ => ⟨S_, .f32⟩
  | .hbm, ⟨37, _⟩ => ⟨S800000x64, .f32⟩
  | .hbm, ⟨38, _⟩ => ⟨S1600000x1, .i32⟩
  | .hbm, ⟨39, _⟩ => ⟨S800000x64, .f32⟩
  | .hbm, ⟨40, _⟩ => ⟨S800000x64, .f32⟩
  | .hbm, ⟨41, _⟩ => ⟨S1x800000, .i32⟩
  | .hbm, ⟨42, _⟩ => ⟨S800000, .i32⟩
  | .hbm, ⟨43, _⟩ => ⟨S1x800000, .i32⟩
  | .hbm, ⟨44, _⟩ => ⟨S800000, .i32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x64, .f32⟩
  | .hbm, ⟨54, _⟩ => ⟨S800000x128, .f32⟩
  | .hbm, ⟨55, _⟩ => ⟨S800000x128, .f32⟩
  | .hbm, ⟨56, _⟩ => ⟨S1x128, .f32⟩
  | .hbm, ⟨57, _⟩ => ⟨S800000x128, .f32⟩
  | .hbm, ⟨58, _⟩ => ⟨S800000x128, .f32⟩
  | .hbm, ⟨59, _⟩ => ⟨S_, .f32⟩
  | .hbm, ⟨60, _⟩ => ⟨S800000x128, .f32⟩
  | .hbm, ⟨61, _⟩ => ⟨S800000x128, .f32⟩
  | .hbm, ⟨62, _⟩ => ⟨S800000x64, .f32⟩
  | .hbm, ⟨63, _⟩ => ⟨S1x64, .f32⟩
  | .hbm, ⟨64, _⟩ => ⟨S800000x64, .f32⟩
  | .hbm, ⟨65, _⟩ => ⟨S800000x64, .f32⟩
  | .hbm, ⟨66, _⟩ => ⟨S_, .f32⟩
  | .hbm, ⟨67, _⟩ => ⟨S50000x64, .f32⟩
  | .hbm, ⟨68, _⟩ => ⟨S800000x1, .i32⟩
  | .hbm, ⟨69, _⟩ => ⟨S50000x64, .f32⟩
  | .hbm, ⟨70, _⟩ => ⟨S_, .f32⟩
  | .hbm, ⟨71, _⟩ => ⟨S256x64, .f32⟩
  | .hbm, ⟨72, _⟩ => ⟨S50000x1, .i32⟩
  | .hbm, ⟨73, _⟩ => ⟨S256x64, .f32⟩
  | .hbm, ⟨74, _⟩ => ⟨S_, .f32⟩
  | .hbm, ⟨75, _⟩ => ⟨S256x64, .f32⟩
  | .hbm, ⟨76, _⟩ => ⟨S256x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_call0_cst : Ref sig .tc := ⟨.hbm, 29, rfl⟩
abbrev main_call0_v0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_1 : Ref sig .tc := ⟨.hbm, 45, rfl⟩
abbrev main_v29 : Ref sig .tc := ⟨.hbm, 46, rfl⟩
abbrev main_v30 : Ref sig .tc := ⟨.hbm, 47, rfl⟩
abbrev main_c_2 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_call1_cst : Ref sig .tc := ⟨.hbm, 59, rfl⟩
abbrev main_call1_v0 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_3 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_4 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_5 : Ref sig .tc := ⟨.hbm, 74, rfl⟩
abbrev main_v52 : Ref sig .tc := ⟨.hbm, 75, rfl⟩
abbrev main_v53 : Ref sig .tc := ⟨.hbm, 76, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x128_d1 : Shape.Concatenates [S1600000x64, S1600000x64] S1600000x128 1
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S800000x64 : S_.BroadcastsInDim S800000x64 (![] : Fin 0 → Fin S800000x64.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S1x64_S800000x64_0_1 : S1x64.BroadcastsInDim S800000x64 (![0, 1] : Fin 2 → Fin S800000x64.rank)
  bcast_S_S50000x64 : S_.BroadcastsInDim S50000x64 (![] : Fin 0 → Fin S50000x64.rank)
  bcast_S_S256x64 : S_.BroadcastsInDim S256x64 (![] : Fin 0 → Fin S256x64.rank)
  bcast_S50000_S50000x1_0 : S50000.BroadcastsInDim S50000x1 (![0] : Fin 1 → Fin S50000x1.rank)
  gather_S800000x64_S1600000x1_S1600000x64_1_0_n_n_0_1_164_wf : GatherDims.WF S800000x64 S1600000x1 S1600000x64 [1] [0] [] [0] [] 1 ![1, 64]
  dot_S1600000x128_S128x128_S1600000x128_1_0_0_1_n_n_wf : DotDims.WF S1600000x128 S128x128 S1600000x128 [1] [0] [0] [1] [] []
  dot_S1600000x128_S128x64_S1600000x64_1_0_0_1_n_n_wf : DotDims.WF S1600000x128 S128x64 S1600000x64 [1] [0] [0] [1] [] []
  scatter_S800000x64_S1600000x1_S1600000x64_1_0_0_1_wf : ScatterDims.WF S800000x64 S1600000x1 S1600000x64 [1] [0] [0] 1
  gather_S50000x64_S800000x1_S800000x64_1_0_n_n_0_1_164_wf : GatherDims.WF S50000x64 S800000x1 S800000x64 [1] [0] [] [0] [] 1 ![1, 64]
  dot_S800000x128_S128x128_S800000x128_1_0_0_1_n_n_wf : DotDims.WF S800000x128 S128x128 S800000x128 [1] [0] [0] [1] [] []
  dot_S800000x128_S128x64_S800000x64_1_0_0_1_n_n_wf : DotDims.WF S800000x128 S128x64 S800000x64 [1] [0] [0] [1] [] []
  scatter_S50000x64_S800000x1_S800000x64_1_0_0_1_wf : ScatterDims.WF S50000x64 S800000x1 S800000x64 [1] [0] [0] 1
  scatter_S256x64_S50000x1_S50000x64_1_0_0_1_wf : ScatterDims.WF S256x64 S50000x1 S50000x64 [1] [0] [0] 1

variable [Facts₀]

def gather_S800000x64_S1600000x1_S1600000x64_1_0_n_n_0_1_164 : GatherDims S800000x64 S1600000x1 S1600000x64 where
  offsetDims := [1]
  collapsedSliceDims := [0]
  operandBatchingDims := []
  startIndicesBatchingDims := []
  startIndexMap := [0]
  indexVectorDim := 1
  sliceSizes := ![1, 64]
  wf := gather_S800000x64_S1600000x1_S1600000x64_1_0_n_n_0_1_164_wf
def dot_S1600000x128_S128x128_S1600000x128_1_0_0_1_n_n : DotDims S1600000x128 S128x128 S1600000x128 where
  lhsContracting := [1]
  rhsContracting := [0]
  lhsNonContracting := [0]
  rhsNonContracting := [1]
  lhsBatch := []
  rhsBatch := []
  wf := dot_S1600000x128_S128x128_S1600000x128_1_0_0_1_n_n_wf
def dot_S1600000x128_S128x64_S1600000x64_1_0_0_1_n_n : DotDims S1600000x128 S128x64 S1600000x64 where
  lhsContracting := [1]
  rhsContracting := [0]
  lhsNonContracting := [0]
  rhsNonContracting := [1]
  lhsBatch := []
  rhsBatch := []
  wf := dot_S1600000x128_S128x64_S1600000x64_1_0_0_1_n_n_wf
def scatter_S800000x64_S1600000x1_S1600000x64_1_0_0_1 : ScatterDims S800000x64 S1600000x1 S1600000x64 where
  updateWindowDims := [1]
  insertedWindowDims := [0]
  scatterDimsToOperandDims := [0]
  indexVectorDim := 1
  wf := scatter_S800000x64_S1600000x1_S1600000x64_1_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S256x64_S50000x1_S50000x64_1_0_0_1 : ScatterDims S256x64 S50000x1 S50000x64 where
  updateWindowDims := [1]
  insertedWindowDims := [0]
  scatterDimsToOperandDims := [0]
  indexVectorDim := 1
  wf := scatter_S256x64_S50000x1_S50000x64_1_0_0_1_wf

class Facts : Prop extends Facts₀ where

variable [Facts]
-- ==== Proof.MlpRow.lean ====
/-
  One row of the two-layer perceptron, on the extended reals.

  For an input row `h` (128 entries), weights `W1` (128 × 128) and `W2` (128 × 64) and biases `b1`, `b2`:
  hidden unit `k` is `max (∑ j, h j · W1 j k + b1 k) 0`, output `q` is `∑ k, hidden k · W2 k q + b2 q`.
  The zero is kept as the float pattern both programs write, so that it is never evaluated.
  Both programs compute exactly this on every row: the kernel on 8192-row blocks of the zero-padded input, through
  two matrix products into zero accumulators; the reference on the whole input through two `dot_general`s.
-/
import Idealize.ShloMosaic.PureOps.Ideal
import Idealize.ShloMosaic.Lib.ValueIdx

noncomputable section

namespace Cert.MlpRow

open Idealize.ShloMosaic

/-- Hidden unit `k` of the row `h`: the affine map, then the positive part. -/
def hidden (h : Fin 128 → EReal) (W1 : Fin 128 → Fin 128 → EReal) (b1 : Fin 128 → EReal) (k : Fin 128) : EReal :=
  max ((∑ j : Fin 128, h j * W1 j k) + b1 k) (Ideal.ofBits .f32 0x00000000#32)

/-- Output `q` of the row `h`: the second affine map of the hidden units. -/
def out (h : Fin 128 → EReal) (W1 : Fin 128 → Fin 128 → EReal) (b1 : Fin 128 → EReal)
    (W2 : Fin 128 → Fin 64 → EReal) (b2 : Fin 64 → EReal) (q : Fin 64) : EReal :=
  (∑ k : Fin 128, hidden h W1 b1 k * W2 k q) + b2 q

/-- Rows that agree entry by entry give the same outputs. -/
theorem out_congr {h h' : Fin 128 → EReal} {W1 W1' : Fin 128 → Fin 128 → EReal} {b1 b1' : Fin 128 → EReal}
    {W2 W2' : Fin 128 → Fin 64 → EReal} {b2 b2' : Fin 64 → EReal} (q : Fin 64)
    (hh : ∀ j, h j = h' j) (hW1 : ∀ j k, W1 j k = W1' j k) (hb1 : ∀ k, b1 k = b1' k)
    (hW2 : ∀ k, W2 k q = W2' k q) (hb2 : b2 q = b2' q) :
    out h W1 b1 W2 b2 q = out h' W1' b1' W2' b2' q := by
  unfold out hidden
  rw [hb2]
  refine congrArg (· + b2' q) (Finset.sum_congr rfl fun k _ => ?_)
  rw [hW2 k, hb1 k]
  refine congrArg (fun s => max (s + b1' k) _ * W2' k q) (Finset.sum_congr rfl fun j _ => ?_)
  rw [hh j, hW1 j k]

end Cert.MlpRow

end
-- ==== Proof.KernelPoint.lean ====
/-
  What the kernel body stores, read at one index of its 8192 × 64 output block.

  The body computes, from a block `x0` of 8192 input rows, the weights `x1`, `x3` and the one-row biases `x2`, `x4`:
  `(max (x0 · x1 + x2) 0) · x3 + x4`, the two products on the matrix unit into zero accumulators, the operands
  narrowed to bf16 first. On the extended reals a narrowing is the identity and a product into a zero accumulator
  is the plain sum over the contracted axis, so entry `(p, q)` of the result is `MlpRow.out` of row `p` of the block.
  The two pallas_calls print the same body, so the statement serves both.
-/
import proofs.«107612_j41240275976362_1_alg».proof.Proof.Gen.KernelIdeal.Skeleton
import proofs.«107612_j41240275976362_1_alg».proof.Proof.MlpRow
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Point

open Cert.KernelIdeal Cert.KernelIdeal.Gen Idealize.ShloMosaic Idealize.ShloMosaic.ValueIdx

/-! ## The two products' index maps: the row comes from the left factor, the column from the right, the contracted
    coordinate runs over both -/

theorem lhsA_0 (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
theorem lhsA_1 (i : S8192x128.Idx) (q : dot_S8192x128_S128x128_S8192x128_1_0_0_1_n_n.contr.Idx) :
    (dot_S8192x128_S128x128_S8192x128_1_0_0_1_n_n.lhsIdx i q 1).val = (q ⟨0, by decide⟩).val :=
  dot_S8192x128_S128x128_S8192x128_1_0_0_1_n_n.lhsIdx_val_of_single rfl i q
theorem rhsA_0 (i : S8192x128.Idx) (q : dot_S8192x128_S128x128_S8192x128_1_0_0_1_n_n.contr.Idx) :
    (dot_S8192x128_S128x128_S8192x128_1_0_0_1_n_n.rhsIdx i q 0).val = (q ⟨0, by decide⟩).val :=
  dot_S8192x128_S128x128_S8192x128_1_0_0_1_n_n.rhsIdx_val_of_single rfl i q
theorem rhsA_1 (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

theorem lhsB_0 (i : S8192x64.Idx) (q : dot_S8192x128_S128x64_S8192x64_1_0_0_1_n_n.contr.Idx) :
    (dot_S8192x128_S128x64_S8192x64_1_0_0_1_n_n.lhsIdx i q 0).val = (i 0).val := by
  unfold DotDims.lhsIdx
  rw [dif_neg (show ¬(0 : Fin S8192x128.rank) ∈ dot_S8192x128_S128x64_S8192x64_1_0_0_1_n_n.lhsBatch by decide), dif_pos (show (0 : Fin S8192x128.rank) ∈ dot_S8192x128_S128x64_S8192x64_1_0_0_1_n_n.lhsNonContracting by decide)]
  rfl
theorem lhsB_1 (i : S8192x64.Idx) (q : dot_S8192x128_S128x64_S8192x64_1_0_0_1_n_n.contr.Idx) :
    (dot_S8192x128_S128x64_S8192x64_1_0_0_1_n_n.lhsIdx i q 1).val = (q ⟨0, by decide⟩).val :=
  dot_S8192x128_S128x64_S8192x64_1_0_0_1_n_n.lhsIdx_val_of_single rfl i q
theorem rhsB_0 (i : S8192x64.Idx) (q : dot_S8192x128_S128x64_S8192x64_1_0_0_1_n_n.contr.Idx) :
    (dot_S8192x128_S128x64_S8192x64_1_0_0_1_n_n.rhsIdx i q 0).val = (q ⟨0, by decide⟩).val :=
  dot_S8192x128_S128x64_S8192x64_1_0_0_1_n_n.rhsIdx_val_of_single rfl i q
theorem rhsB_1 (i : S8192x64.Idx) (q : dot_S8192x128_S128x64_S8192x64_1_0_0_1_n_n.contr.Idx) :
    (dot_S8192x128_S128x64_S8192x64_1_0_0_1_n_n.rhsIdx i q 1).val = (i 1).val := by
  unfold DotDims.rhsIdx
  rw [dif_neg (show ¬(1 : Fin S128x64.rank) ∈ dot_S8192x128_S128x64_S8192x64_1_0_0_1_n_n.rhsBatch by decide), dif_pos (show (1 : Fin S128x64.rank) ∈ dot_S8192x128_S128x64_S8192x64_1_0_0_1_n_n.rhsNonContracting by decide)]
  rfl

/-! ## The two products as sums over the 128 contracted coordinates -/

/-- The first product, block rows against the first layer's weights: entry `(p, c)` is `∑ j, l (p, j) · r (j, c)`. -/
theorem matmulA_apply (l : FVec Ideal S8192x128 .bf16) (r : FVec Ideal S128x128 .bf16) (p : Fin 8192) (c : Fin 128) :
    matmul dot_S8192x128_S128x128_S8192x128_1_0_0_1_n_n none l r (constant S8192x128 .f32 0x00000000#32) (ix2 p c)
      = ∑ j : Fin 128, l (ix2 p j) * r (ix2 j c) := by
  simp only [matmul]
  rw [Ideal.matmul_constant_zero_apply, ← Equiv.sum_comp (contrEquiv1 dot_S8192x128_S128x128_S8192x128_1_0_0_1_n_n 128 rfl rfl).symm]
  refine Finset.sum_congr rfl fun j _ => ?_
  have hj := contrEquiv1_symm_val dot_S8192x128_S128x128_S8192x128_1_0_0_1_n_n 128 rfl rfl j
  have el : dot_S8192x128_S128x128_S8192x128_1_0_0_1_n_n.lhsIdx (ix2 p c) ((contrEquiv1 dot_S8192x128_S128x128_S8192x128_1_0_0_1_n_n 128 rfl rfl).symm j) = ix2 p j := funext fun a => Fin.ext (by
    match a with
    | ⟨0, _⟩ => exact lhsA_0 _ _
    | ⟨1, _⟩ => exact (lhsA_1 _ _).trans hj)
  have er : dot_S8192x128_S128x128_S8192x128_1_0_0_1_n_n.rhsIdx (ix2 p c) ((contrEquiv1 dot_S8192x128_S128x128_S8192x128_1_0_0_1_n_n 128 rfl rfl).symm j) = ix2 j c := funext fun a => Fin.ext (by
    match a with
    | ⟨0, _⟩ => exact (rhsA_0 _ _).trans hj
    | ⟨1, _⟩ => exact rhsA_1 _ _)
  rw [el, er]

/-- The second product, hidden rows against the second layer's weights: entry `(p, c)` is `∑ j, l (p, j) · r (j, c)`. -/
theorem matmulB_apply (l : FVec Ideal S8192x128 .bf16) (r : FVec Ideal S128x64 .bf16) (p : Fin 8192) (c : Fin 64) :
    matmul dot_S8192x128_S128x64_S8192x64_1_0_0_1_n_n none l r (constant S8192x64 .f32 0x00000000#32) (ix2 p c)
      = ∑ j : Fin 128, l (ix2 p j) * r (ix2 j c) := by
  simp only [matmul]
  rw [Ideal.matmul_constant_zero_apply, ← Equiv.sum_comp (contrEquiv1 dot_S8192x128_S128x64_S8192x64_1_0_0_1_n_n 128 rfl rfl).symm]
  refine Finset.sum_congr rfl fun j _ => ?_
  have hj := contrEquiv1_symm_val dot_S8192x128_S128x64_S8192x64_1_0_0_1_n_n 128 rfl rfl j
  have el : dot_S8192x128_S128x64_S8192x64_1_0_0_1_n_n.lhsIdx (ix2 p c) ((contrEquiv1 dot_S8192x128_S128x64_S8192x64_1_0_0_1_n_n 128 rfl rfl).symm j) = ix2 p j := funext fun a => Fin.ext (by
    match a with
    | ⟨0, _⟩ => exact lhsB_0 _ _
    | ⟨1, _⟩ => exact (lhsB_1 _ _).trans hj)
  have er : dot_S8192x128_S128x64_S8192x64_1_0_0_1_n_n.rhsIdx (ix2 p c) ((contrEquiv1 dot_S8192x128_S128x64_S8192x64_1_0_0_1_n_n 128 rfl rfl).symm j) = ix2 j c := funext fun a => Fin.ext (by
    match a with
    | ⟨0, _⟩ => exact (rhsB_0 _ _).trans hj
    | ⟨1, _⟩ => exact rhsB_1 _ _)
  rw [el, er]

/-! ## The stored value at an index -/

/-- Entry `(p, q)` of what the first pallas_call's body stores is the perceptron's output `q` on row `p` of its input block. -/
theorem pay0_apply (x0 : Vec Ideal S8192x128 .f32) (x1 : Vec Ideal S128x128 .bf16) (x2 : Vec Ideal S1x128 .f32)
    (x3 : Vec Ideal S128x64 .bf16) (x4 : Vec Ideal S1x64 .f32) (p : Fin 8192) (q : Fin 64) :
    k0_pay1 (F := Ideal) x0 x1 x2 x3 x4 (ix2 p q)
      = MlpRow.out (fun j => x0 (ix2 p j)) (fun j k => x1 (ix2 j k)) (fun k => x2 (ix2 (0 : Fin 1) k))
          (fun k c => x3 (ix2 k c)) (fun c => x4 (ix2 (0 : Fin 1) c)) q := by
  unfold k0_pay1 MlpRow.out MlpRow.hidden
  simp only [shapeCast_self]
  rw [addf_apply, matmulB_apply, broadcastTo_1b_ab_apply]
  refine congrArg (· + x4 (ix2 (0 : Fin 1) q)) (Finset.sum_congr rfl fun k _ => ?_)
  rw [truncf_apply, maximumf_apply, addf_apply, matmulA_apply, broadcastTo_1b_ab_apply, broadcast_apply]
  rfl

/-- The second pallas_call's body is the same text, so it stores the same function of its blocks. -/
theorem pay1_eq : @k1_pay1 Ideal _ = @k0_pay1 Ideal _ := rfl

end Cert.KernelIdeal.Point

end
-- ==== Proof.Region0Value.lean ====
/-
  The first pallas_call's output array, as one function of what the region finds in its input arrays.

  The grid has 196 points; point `t` reads rows `8192·t … 8192·t + 8191` of the padded input (window 0), the two
  weight arrays and the two one-row bias arrays whole (windows 1–4, the same block at every point), and writes rows
  `8192·t … 8192·t + 8191` of the output (window 5). The body's stored value at `(p, q)` is the perceptron's output `q`
  on row `p` of the input block (KernelPoint.lean), and row `p` of block `t` is row `8192·t + p` of the array; the 196
  output blocks tile the 1605632 rows. So the output array ends holding, at `(r, q)`, the perceptron's output `q` on
  row `r` of the input array: `rows`. Stated for ANY entry contents `V`, so that it can be used at the contents the
  host operations before the region leave.
-/
import proofs.«107612_j41240275976362_1_alg».proof.Proof.Gen.KernelIdeal.Frame
import proofs.«107612_j41240275976362_1_alg».proof.Proof.KernelPoint

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

/-- The perceptron applied to every row of a 1605632 × 128 array: entry `(r, q)` is output `q` on row `r`. The weights
    are 128 × 128 and 128 × 64 arrays, the biases 1 × 128 and 1 × 64 arrays. -/
def rows (P : S1605632x128.Idx → EReal) (W1 : S128x128.Idx → EReal) (B1 : S1x128.Idx → EReal)
    (W2 : S128x64.Idx → EReal) (B2 : S1x64.Idx → EReal) : S1605632x64.Idx → EReal := fun i =>
  MlpRow.out (fun j => P (ix2 (⟨(i 0).val, (i 0).isLt⟩ : Fin 1605632) j)) (fun j k => W1 (ix2 j k))
    (fun k => B1 (ix2 (0 : Fin 1) k)) (fun k c => W2 (ix2 k c)) (fun c => B2 (ix2 (0 : Fin 1) c))
    (⟨(i 1).val, (i 1).isLt⟩ : Fin 64)

variable (V : (c : Dev nD) → (b : Ref sig .tc) → Buf (Elt Ideal) ((c : Thread nD τ).loc b))

theorem zeros : (![0, 0] : Fin 2 → Nat) = fun _ => 0 := funext fun a => by fin_cases a <;> rfl

/-- The printed index maps over the grid: the row-blocked windows sit at block `(t, 0)`, the others at `(0, 0)`. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 196 := lt_of_lt_of_eq t.isLt N_0

/-- Row `p` of point `t`'s block is row `8192·t + p` of the array. -/
def rowOf (t : Fin cfg0.N) (p : Fin 8192) : Fin 1605632 := ⟨t.val * 8192 + p.val, by have := point_lt t; have := p.isLt; omega⟩

/-- Window 0's block at `t` sits in the padded input at rows `8192·t …`. -/
theorem emb0 (t : Fin cfg0.N) (p : Fin 8192) (j : Fin 128) :
    ((cfg0.win 0).blk t).view.emb (ix2 p j) = (ix2 (rowOf t p) j : S1605632x128.Idx) := by
  obtain ⟨e0, e1, -⟩ := index_facts t
  funext a; apply Fin.ext
  match a with
  | ⟨0, _⟩ => show win0_0.index t (0 : Fin 2) * 8192 + 1 * p.val = t.val * 8192 + p.val; omega
  | ⟨1, _⟩ => show win0_0.index t (1 : Fin 2) * 128 + 1 * j.val = j.val; omega

/-- Window 5's block at `t` sits in the output at rows `8192·t …`. -/
theorem emb5 (t : Fin cfg0.N) (p : Fin 8192) (q : Fin 64) :
    ((cfg0.win 5).blk t).view.emb (ix2 p q) = (ix2 (rowOf t p) q : S1605632x64.Idx) := by
  obtain ⟨-, -, -, -, -, -, -, -, -, -, e0, e1⟩ := index_facts t
  funext a; apply Fin.ext
  match a with
  | ⟨0, _⟩ => show win0_5.index t (0 : Fin 2) * 8192 + 1 * p.val = t.val * 8192 + p.val; omega
  | ⟨1, _⟩ => show win0_5.index t (1 : Fin 2) * 64 + 1 * q.val = q.val; omega

/-- The whole-array windows' one block is the array. -/
theorem emb1 (t : Fin cfg0.N) (y : S128x128.Idx) : ((cfg0.win 1).blk t).view.emb y = y := by
  obtain ⟨-, -, e0, e1, -⟩ := index_facts t
  funext a; apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega
theorem emb2 (t : Fin cfg0.N) (y : S1x128.Idx) : ((cfg0.win 2).blk t).view.emb y = y := by
  obtain ⟨-, -, -, -, e0, e1, -⟩ := index_facts t
  funext a; apply Fin.ext
  match a with
  | ⟨0, _⟩ => show win0_2.index t (0 : Fin 2) * 1 + 1 * (y 0).val = (y 0).val; omega
  | ⟨1, _⟩ => show win0_2.index t (1 : Fin 2) * 128 + 1 * (y 1).val = (y 1).val; omega
theorem emb3 (t : Fin cfg0.N) (y : S128x64.Idx) : ((cfg0.win 3).blk t).view.emb y = y := by
  obtain ⟨-, -, -, -, -, -, e0, e1, -⟩ := index_facts t
  funext a; apply Fin.ext
  match a with
  | ⟨0, _⟩ => show win0_3.index t (0 : Fin 2) * 128 + 1 * (y 0).val = (y 0).val; omega
  | ⟨1, _⟩ => show win0_3.index t (1 : Fin 2) * 64 + 1 * (y 1).val = (y 1).val; omega
theorem emb4 (t : Fin cfg0.N) (y : S1x64.Idx) : ((cfg0.win 4).blk t).view.emb y = y := by
  obtain ⟨-, -, -, -, -, -, -, -, e0, e1, -⟩ := index_facts t
  funext a; apply Fin.ext
  match a with
  | ⟨0, _⟩ => show win0_4.index t (0 : Fin 2) * 1 + 1 * (y 0).val = (y 0).val; omega
  | ⟨1, _⟩ => show win0_4.index t (1 : Fin 2) * 64 + 1 * (y 1).val = (y 1).val; omega

/-- The input blocks at point `t`, read where they sit in their arrays. -/
theorem blk0 (c : Dev nD) (t : Fin cfg0.N) (p : Fin 8192) (j : Fin 128) :
    iblk0 V c 0 t (ix2 p j) = V c main_v16 (ix2 (rowOf t p) j) := by
  show V c main_v16 (((cfg0.win 0).blk t).view.emb (ix2 p j)) = _
  rw [emb0]
theorem blk1 (c : Dev nD) (t : Fin cfg0.N) (y : S128x128.Idx) : iblk0 V c 1 t y = V c main_v0 y := by
  show V c main_v0 (((cfg0.win 1).blk t).view.emb y) = _
  rw [emb1]
theorem blk2 (c : Dev nD) (t : Fin cfg0.N) (y : S1x128.Idx) : iblk0 V c 2 t y = V c main_v2 y := by
  show V c main_v2 (((cfg0.win 2).blk t).view.emb y) = _
  rw [emb2]
theorem blk3 (c : Dev nD) (t : Fin cfg0.N) (y : S128x64.Idx) : iblk0 V c 3 t y = V c main_v1 y := by
  show V c main_v1 (((cfg0.win 3).blk t).view.emb y) = _
  rw [emb3]
theorem blk4 (c : Dev nD) (t : Fin cfg0.N) (y : S1x64.Idx) : iblk0 V c 4 t y = V c main_v3 y := by
  show V c main_v3 (((cfg0.win 4).blk t).view.emb y) = _
  rw [emb4]

/-- WHAT POINT `t` WRITES BACK is block `t` of `rows` of the arrays as the region finds them. -/
theorem flushed_eq (c : Dev nD) (t : Fin cfg0.N) :
    (dat0 V c).flushed 5 t
      = ((cfg0.win 5).blk t).view.read (Elt Ideal) (rows (V c main_v16) (V c main_v0) (V c main_v2) (V c main_v1) (V c main_v3)) := by
  show (cfg0.win 5).cut (grid0.coords t) ((dat0 V c).after 5 t) = _
  rw [after0_5]
  unfold out0_5
  rw [View.canon_unit_zero zeros]
  simp only [View.ld_unit_zero (S := S8192x128) zeros, View.ld_unit_zero (S := S128x128) zeros, View.ld_unit_zero (S := S1x128) zeros,
    View.ld_unit_zero (S := S128x64) zeros, View.ld_unit_zero (S := S1x64) zeros]
  funext y
  obtain ⟨p, q, rfl⟩ : ∃ (p : Fin 8192) (q : Fin 64), y = ix2 p q := ⟨y 0, y 1, eq_ix2 y⟩
  show k0_pay1 (F := Ideal) (iblk0 V c 0 t) (iblk0 V c 1 t) (iblk0 V c 2 t) (iblk0 V c 3 t) (iblk0 V c 4 t) (ix2 p q)
    = rows (V c main_v16) (V c main_v0) (V c main_v2) (V c main_v1) (V c main_v3) (((cfg0.win 5).blk t).view.emb (ix2 p q))
  rw [emb5]
  refine (Point.pay0_apply (iblk0 V c 0 t) (iblk0 V c 1 t) (iblk0 V c 2 t) (iblk0 V c 3 t) (iblk0 V c 4 t) p q).trans ?_
  unfold rows
  exact MlpRow.out_congr q (fun j => blk0 V c t p j) (fun j k => blk1 V c t _) (fun k => blk2 V c t _)
    (fun k => blk3 V c t _) (blk4 V c t _)

/-- An index of the output array is in point `t`'s block iff each coordinate is in the block's range on its axis. -/
theorem mem_blk (t : Fin cfg0.N) (i : S1605632x64.Idx) :
    i ∈ ((cfg0.win 5).blk t).view.set ↔ ∀ a : Fin 2, win0_5.index t a * S8192x64.size a ≤ (i a).val ∧ (i a).val < win0_5.index t a * S8192x64.size a + S8192x64.size a := by
  show i ∈ ((View.whole main_v17).slice (win0_5.rect t)).set ↔ _
  rw [View.set_slice_whole, Rect.mem_set_unit]
  exact Iff.rfl

/-- The 196 output blocks tile the array: row `r` is in the block of point `r / 8192`. -/
theorem cover (i : S1605632x64.Idx) : ∃ t : Fin cfg0.N, (cfg0.win 5).flush t = true ∧ i ∈ ((cfg0.win 5).blk t).view.set := by
  have hi0 : (i 0).val < 1605632 := (i 0).isLt
  have hi1 : (i 1).val < 64 := (i 1).isLt
  let t : Fin cfg0.N := ⟨(i 0).val / 8192, lt_of_lt_of_eq (by omega : (i 0).val / 8192 < 196) N_0.symm⟩
  obtain ⟨-, -, -, -, -, -, -, -, -, -, e0, e1⟩ := index_facts t
  have ht : t.val = (i 0).val / 8192 := rfl
  refine ⟨t, flush0_5 t, ?_⟩
  rw [mem_blk]
  intro a
  match a with
  | ⟨0, _⟩ => show win0_5.index t (0 : Fin 2) * 8192 ≤ (i 0).val ∧ (i 0).val < win0_5.index t (0 : Fin 2) * 8192 + 8192; omega
  | ⟨1, _⟩ => show win0_5.index t (1 : Fin 2) * 64 ≤ (i 1).val ∧ (i 1).val < win0_5.index t (1 : Fin 2) * 64 + 64; omega

/-- THE OUTPUT ARRAY after the region: the perceptron on every row of the input array as the region found it. -/
theorem final (c : Dev nD) :
    (dat0 V c).arrAt 5 cfg0.N = rows (V c main_v16) (V c main_v0) (V c main_v2) (V c main_v1) (V c main_v3) :=
  (dat0 V c).arrAt_eq_of_cover 5 _ (fun t _ => flushed_eq V c t) cover

end Cert.KernelIdeal.Region0

end
-- ==== Proof.RefMlp.lean ====
/-
  The reference's two perceptron stages, read at one index.

  The reference applies `relu (h · W1 + b1) · W2 + b2` to a whole array `h` of rows, twice: to the 1600000 rows built from
  the second graph's edges, and to the 800000 rows built from the first graph's edges. Each is eight host operations:
  a `dot_general`, the bias broadcast from `[128]` through `[1, 128]` to every row, an add, a maximum against a
  broadcast zero, a second `dot_general`, the second bias broadcast, an add. On the extended reals a `dot_general` is the
  sum over the contracted coordinate, so entry `(r, q)` of the result is `MlpRow.out` of row `r` of the stage's input.
-/
import proofs.«107612_j41240275976362_1_alg».proof.Proof.Gen.ReferenceIdeal.Read
import proofs.«107612_j41240275976362_1_alg».proof.Proof.MlpRow

noncomputable section

namespace Cert.ReferenceIdeal.RefValue

open Cert.ReferenceIdeal Cert.ReferenceIdeal.Read Idealize.ShloMosaic Idealize.ShloMosaic.ValueIdx

/-- The first stage (1600000 rows): entry `(r, q)` of its result is the perceptron's output `q` on row `r` of the
    concatenated input `val_main_v11`. -/
theorem mlp0_apply (x1 : (⟨S800000x64, .f32⟩ : BufTy).Contents (Elt Ideal)) (x3 : (⟨S2x1600000, .i32⟩ : BufTy).Contents (Elt Ideal))
    (x6 : (⟨S1600000x64, .f32⟩ : BufTy).Contents (Elt Ideal)) (x7 : (⟨S128x128, .f32⟩ : BufTy).Contents (Elt Ideal))
    (x8 : (⟨S128, .f32⟩ : BufTy).Contents (Elt Ideal)) (x9 : (⟨S128x64, .f32⟩ : BufTy).Contents (Elt Ideal))
    (x10 : (⟨S64, .f32⟩ : BufTy).Contents (Elt Ideal)) (r : Fin 1600000) (q : Fin 64) :
    val_main_v20 (F := Ideal) x1 x3 x6 x7 x8 x9 x10 (ix2 r q)
      = MlpRow.out (fun j => val_main_v11 (F := Ideal) x1 x3 x6 (ix2 r j)) (fun j k => x7 (ix2 j k)) (fun k => x8 (ix1 k))
          (fun k c => x9 (ix2 k c)) (fun c => x10 (ix1 c)) q := by
  have eOl : ∀ k : Fin 128, lidx_main_v17 (ix2 r q) k = ix2 r k := fun k => funext fun a => Fin.ext (by match a with | ⟨0, _⟩ => rfl | ⟨1, _⟩ => rfl)
  have eOr : ∀ k : Fin 128, ridx_main_v17 (ix2 r q) k = ix2 k q := fun k => funext fun a => Fin.ext (by match a with | ⟨0, _⟩ => rfl | ⟨1, _⟩ => rfl)
  have eHl : ∀ k j : Fin 128, lidx_main_v12 (ix2 r k) j = ix2 r j := fun k j => funext fun a => Fin.ext (by match a with | ⟨0, _⟩ => rfl | ⟨1, _⟩ => rfl)
  have eHr : ∀ k j : Fin 128, ridx_main_v12 (ix2 r k) j = ix2 j k := fun k j => funext fun a => Fin.ext (by match a with | ⟨0, _⟩ => rfl | ⟨1, _⟩ => rfl)
  have eB1 : ∀ k : Fin 128, idx_main_v13 (idx_main_v14 (ix2 r k)) = ix1 k := fun k => funext fun a => Fin.ext (by match a with | ⟨0, _⟩ => rfl)
  have eB2 : idx_main_v18 (idx_main_v19 (ix2 r q)) = ix1 q := funext fun a => Fin.ext (by match a with | ⟨0, _⟩ => rfl)
  unfold MlpRow.out MlpRow.hidden
  rw [val_main_v20_apply, val_main_v17_apply, val_main_v19_apply, val_main_v18_apply, eB2]
  simp only [eOl, eOr, val_main_v16_apply, val_main_v15_apply, val_main_v12_apply, val_main_v14_apply, val_main_v13_apply,
    val_main_call0_v0_apply, val_main_call0_cst_apply, eHl, eHr, eB1]
  rfl

/-- The second stage (800000 rows): entry `(r, q)` of its result is the perceptron's output `q` on row `r` of the
    concatenated input `val_main_v36`. -/
theorem mlp1_apply (x0 : (⟨S50000x64, .f32⟩ : BufTy).Contents (Elt Ideal)) (x1 : (⟨S800000x64, .f32⟩ : BufTy).Contents (Elt Ideal))
    (x2 : (⟨S2x800000, .i32⟩ : BufTy).Contents (Elt Ideal)) (x3 : (⟨S2x1600000, .i32⟩ : BufTy).Contents (Elt Ideal))
    (x5 : (⟨S800000x64, .f32⟩ : BufTy).Contents (Elt Ideal)) (x6 : (⟨S1600000x64, .f32⟩ : BufTy).Contents (Elt Ideal))
    (x7 : (⟨S128x128, .f32⟩ : BufTy).Contents (Elt Ideal)) (x8 : (⟨S128, .f32⟩ : BufTy).Contents (Elt Ideal))
    (x9 : (⟨S128x64, .f32⟩ : BufTy).Contents (Elt Ideal)) (x10 : (⟨S64, .f32⟩ : BufTy).Contents (Elt Ideal))
    (r : Fin 800000) (q : Fin 64) :
    val_main_v45 (F := Ideal) x0 x1 x2 x3 x5 x6 x7 x8 x9 x10 (ix2 r q)
      = MlpRow.out (fun j => val_main_v36 (F := Ideal) x0 x1 x2 x3 x5 x6 x7 x8 x9 x10 (ix2 r j)) (fun j k => x7 (ix2 j k))
          (fun k => x8 (ix1 k)) (fun k c => x9 (ix2 k c)) (fun c => x10 (ix1 c)) q := by
  have eOl : ∀ k : Fin 128, lidx_main_v42 (ix2 r q) k = ix2 r k := fun k => funext fun a => Fin.ext (by match a with | ⟨0, _⟩ => rfl | ⟨1, _⟩ => rfl)
  have eOr : ∀ k : Fin 128, ridx_main_v42 (ix2 r q) k = ix2 k q := fun k => funext fun a => Fin.ext (by match a with | ⟨0, _⟩ => rfl | ⟨1, _⟩ => rfl)
  have eHl : ∀ k j : Fin 128, lidx_main_v37 (ix2 r k) j = ix2 r j := fun k j => funext fun a => Fin.ext (by match a with | ⟨0, _⟩ => rfl | ⟨1, _⟩ => rfl)
  have eHr : ∀ k j : Fin 128, ridx_main_v37 (ix2 r k) j = ix2 j k := fun k j => funext fun a => Fin.ext (by match a with | ⟨0, _⟩ => rfl | ⟨1, _⟩ => rfl)
  have eB1 : ∀ k : Fin 128, idx_main_v38 (idx_main_v39 (ix2 r k)) = ix1 k := fun k => funext fun a => Fin.ext (by match a with | ⟨0, _⟩ => rfl)
  have eB2 : idx_main_v43 (idx_main_v44 (ix2 r q)) = ix1 q := funext fun a => Fin.ext (by match a with | ⟨0, _⟩ => rfl)
  unfold MlpRow.out MlpRow.hidden
  rw [val_main_v45_apply, val_main_v42_apply, val_main_v44_apply, val_main_v43_apply, eB2]
  simp only [eOl, eOr, val_main_v41_apply, val_main_v40_apply, val_main_v37_apply, val_main_v39_apply, val_main_v38_apply,
    val_main_call1_v0_apply, val_main_call1_cst_apply, eHl, eHr, eB1]
  rfl

end Cert.ReferenceIdeal.RefValue

end
-- ==== Proof.SliceRows.lean ====
/-
  The kept rows of each pallas_call's output are the reference's perceptron stage.

  The kernel pads its input with zero rows up to a multiple of 8192, runs the perceptron on every row of the padded array,
  and keeps the first rows only. A kept row `r` of the output depends on row `r` of the padded input alone, which is row
  `r` of the unpadded input; the weights reach the kernel narrowed to bf16 (the identity on the extended reals) and the
  biases reshaped from `[n]` to `[1, n]`. So the kept rows are, entry by entry, `MlpRow.out` on the rows of the unpadded input
  with the weights and biases as given: the reference's stage (RefMlp.lean).
-/
import proofs.«107612_j41240275976362_1_alg».proof.Proof.Region0Value
import proofs.«107612_j41240275976362_1_alg».proof.Proof.Region1Value
import proofs.«107612_j41240275976362_1_alg».proof.Proof.RefMlp
import Idealize.ShloMosaic.Lib.KernelVsHost
import Idealize.ShloMosaic.Lib.ValueLayout

set_option maxRecDepth 16384

noncomputable section

namespace Cert.KernelIdeal.Slices

open Cert.KernelIdeal Cert.KernelIdeal.Gen Idealize.ShloMosaic Idealize.ShloMosaic.ValueIdx
open Cert.ReferenceIdeal.Read (val_main_v11 val_main_v20 val_main_v36 val_main_v45)

/-- The first pallas_call: rows `0 … 1599999` of the perceptron on the padded `val_main_v11` are the reference's first stage. -/
theorem slice0_eq (x1 : FVec Ideal S800000x64 .f32) (x3 : IVec S2x1600000 32) (x6 : FVec Ideal S1600000x64 .f32)
    (x7 : FVec Ideal S128x128 .f32) (x8 : FVec Ideal S128 .f32) (x9 : FVec Ideal S128x64 .f32) (x10 : FVec Ideal S64 .f32)
    (z : FVec Ideal S_ .f32) :
    @Eq (FVec Ideal S1600000x64 .f32)
      (extractStridedSlice S1600000x64 ![0, 0]
        (Region0.rows (pad S1605632x128 ![0, 0] ![5632, 0] ![0, 0] (val_main_v11 (F := Ideal) x1 x3 x6 : FVec Ideal S1600000x128 .f32) z pads_S1600000x128_S1605632x128_056320_000 h_S_)
          (truncf .bf16 x7 bitsLt_bf16_f32) (shapeCast S1x128 x8 shapeCasts_S128_S1x128)
          (truncf .bf16 x9 bitsLt_bf16_f32) (shapeCast S1x64 x10 shapeCasts_S64_S1x64))
        slices_S1605632x64_S1600000x64_0_0)
      (val_main_v20 (F := Ideal) x1 x3 x6 x7 x8 x9 x10) := by
  funext i
  obtain ⟨r, q, rfl⟩ : ∃ (r : Fin 1600000) (q : Fin 64), i = ix2 r q := ⟨i 0, i 1, eq_ix2 i⟩
  have hr : r.val < 1605632 := by have := r.isLt; omega
  refine (slice2_axis0_apply (n0 := 1605632) (n1 := 64) (m := 1600000) 0 _ slices_S1605632x64_S1600000x64_0_0 r q ⟨r.val, hr⟩
    (Nat.zero_add _).symm).trans ?_
  rw [Cert.ReferenceIdeal.RefValue.mlp0_apply]
  unfold Region0.rows
  refine MlpRow.out_congr q (fun j => ?_) (fun j k => rfl) (fun k => ?_) (fun k => rfl) ?_
  · exact pad_apply_of_inside _ _ _ _ _ _ h_S_ _ (ix2 r j) (fun a => by
      match a with
      | ⟨0, _⟩ => show r.val = 0 + r.val * (0 + 1); omega
      | ⟨1, _⟩ => show j.val = 0 + j.val * (0 + 1); omega)
  · exact shapeCast_a_1a_apply x8 _ 0 k
  · exact shapeCast_a_1a_apply x10 _ 0 q

/-- The second pallas_call: rows `0 … 799999` of the perceptron on the padded `val_main_v36` are the reference's second stage. -/
theorem slice1_eq (x0 : FVec Ideal S50000x64 .f32) (x1 : FVec Ideal S800000x64 .f32) (x2 : IVec S2x800000 32) (x3 : IVec S2x1600000 32)
    (x5 : FVec Ideal S800000x64 .f32) (x6 : FVec Ideal S1600000x64 .f32)
    (x7 : FVec Ideal S128x128 .f32) (x8 : FVec Ideal S128 .f32) (x9 : FVec Ideal S128x64 .f32) (x10 : FVec Ideal S64 .f32)
    (z : FVec Ideal S_ .f32) :
    @Eq (FVec Ideal S800000x64 .f32)
      (extractStridedSlice S800000x64 ![0, 0]
        (Region1.rows (pad S802816x128 ![0, 0] ![2816, 0] ![0, 0] (val_main_v36 (F := Ideal) x0 x1 x2 x3 x5 x6 x7 x8 x9 x10 : FVec Ideal S800000x128 .f32) z pads_S800000x128_S802816x128_028160_000 h_S_)
          (truncf .bf16 x7 bitsLt_bf16_f32) (shapeCast S1x128 x8 shapeCasts_S128_S1x128)
          (truncf .bf16 x9 bitsLt_bf16_f32) (shapeCast S1x64 x10 shapeCasts_S64_S1x64))
        slices_S802816x64_S800000x64_0_0)
      (val_main_v45 (F := Ideal) x0 x1 x2 x3 x5 x6 x7 x8 x9 x10) := by
  funext i
  obtain ⟨r, q, rfl⟩ : ∃ (r : Fin 800000) (q : Fin 64), i = ix2 r q := ⟨i 0, i 1, eq_ix2 i⟩
  have hr : r.val < 802816 := by have := r.isLt; omega
  refine (slice2_axis0_apply (n0 := 802816) (n1 := 64) (m := 800000) 0 _ slices_S802816x64_S800000x64_0_0 r q ⟨r.val, hr⟩
    (Nat.zero_add _).symm).trans ?_
  rw [Cert.ReferenceIdeal.RefValue.mlp1_apply]
  unfold Region1.rows
  refine MlpRow.out_congr q (fun j => ?_) (fun j k => rfl) (fun k => ?_) (fun k => rfl) ?_
  · exact pad_apply_of_inside _ _ _ _ _ _ h_S_ _ (ix2 r j) (fun a => by
      match a with
      | ⟨0, _⟩ => show r.val = 0 + r.val * (0 + 1); omega
      | ⟨1, _⟩ => show j.val = 0 + j.val * (0 + 1); omega)
  · exact shapeCast_a_1a_apply x8 _ 0 k
  · exact shapeCast_a_1a_apply x10 _ 0 q

end Cert.KernelIdeal.Slices

end
-- ==== Proof.KernelValue.lean ====
/-
  The kernel program's result buffer as a function of the arguments: the reference's.

  @main is five stretches of host operations around the two pallas_calls. Reading the fold of buffer contents back from the
  result:
  • the last stretch divides by two the sum over graphs of the sum over target atoms of the KEPT ROWS of the second
    pallas_call's output;
  • that output is the perceptron on every row of the padded array the stretch before it built (Region1Value.lean) — the
    gathered atom features beside the updated bond features, the latter the bond features plus the sum over target bonds of
    the KEPT ROWS of the first pallas_call's output;
  • that output is the perceptron on every row of the padded array the first stretch built (Region0Value.lean): the gathered
    bond features beside the angle features.
  Everything outside the two perceptron stages is the SAME host operation in both programs, applied to equal operands, so
  it is carried along unopened; the kept rows of each pallas_call's output are the reference's stage (SliceRows.lean). The
  weights reach both pallas_calls narrowed to bf16 and the biases reshaped to one row, by the first stretch, and no later
  item writes those four buffers.
-/
import proofs.«107612_j41240275976362_1_alg».proof.Proof.Gen.KernelIdeal.Frame
import proofs.«107612_j41240275976362_1_alg».proof.Proof.SliceRows
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-! ## The first stretch: from the launch memory to the first pallas_call's entry -/

/-- The first pallas_call's row input: the reference's concatenated rows `val_main_v11`, zero-padded to 1605632 rows. -/
theorem A_v16 (c : Dev nD) : @Eq (FVec Ideal S1605632x128 .f32) (W2 m ρ c (Proc.devRef .tc main_v16)) (pad S1605632x128 ![0, 0] ![5632, 0] ![0, 0] (Cert.ReferenceIdeal.Read.val_main_v11 (F := Ideal) (m ((c : Thread nD τ).loc main_arg1) : FVec Ideal S800000x64 .f32) (m ((c : Thread nD τ).loc main_arg3) : IVec S2x1600000 32) (m ((c : Thread nD τ).loc main_arg6) : FVec Ideal S1600000x64 .f32) : FVec Ideal S1600000x128 .f32)
      (sitofp (F := Ideal) .f32 (constantI S_ 32 0#32) : FVec Ideal S_ .f32) pads_S1600000x128_S1605632x128_056320_000 h_S_) := by
  show StableHlo.after hostOps0_1 (StableHlo.after hostOps0 (W0 m ρ c)) (Proc.devRef .tc main_v16) = _
  simp only [hostOps0, hostOps0_1]
  after_results_simp <;> rfl

/-- The weights narrowed to bf16, the biases reshaped to one row. -/
theorem A_v0 (c : Dev nD) : @Eq (FVec Ideal S128x128 .bf16) (W2 m ρ c (Proc.devRef .tc main_v0)) (truncf .bf16 (m ((c : Thread nD τ).loc main_arg7) : FVec Ideal S128x128 .f32) bitsLt_bf16_f32) := by
  show StableHlo.after hostOps0_1 (StableHlo.after hostOps0 (W0 m ρ c)) (Proc.devRef .tc main_v0) = _
  simp only [hostOps0, hostOps0_1]
  after_results_simp <;> rfl
theorem A_v1 (c : Dev nD) : @Eq (FVec Ideal S128x64 .bf16) (W2 m ρ c (Proc.devRef .tc main_v1)) (truncf .bf16 (m ((c : Thread nD τ).loc main_arg9) : FVec Ideal S128x64 .f32) bitsLt_bf16_f32) := by
  show StableHlo.after hostOps0_1 (StableHlo.after hostOps0 (W0 m ρ c)) (Proc.devRef .tc main_v1) = _
  simp only [hostOps0, hostOps0_1]
  after_results_simp <;> rfl
theorem A_v2 (c : Dev nD) : @Eq (FVec Ideal S1x128 .f32) (W2 m ρ c (Proc.devRef .tc main_v2)) (shapeCast S1x128 (m ((c : Thread nD τ).loc main_arg8) : FVec Ideal S128 .f32) shapeCasts_S128_S1x128) := by
  show StableHlo.after hostOps0_1 (StableHlo.after hostOps0 (W0 m ρ c)) (Proc.devRef .tc main_v2) = _
  simp only [hostOps0, hostOps0_1]
  after_results_simp <;> rfl
theorem A_v3 (c : Dev nD) : @Eq (FVec Ideal S1x64 .f32) (W2 m ρ c (Proc.devRef .tc main_v3)) (shapeCast S1x64 (m ((c : Thread nD τ).loc main_arg10) : FVec Ideal S64 .f32) shapeCasts_S64_S1x64) := by
  show StableHlo.after hostOps0_1 (StableHlo.after hostOps0 (W0 m ρ c)) (Proc.devRef .tc main_v3) = _
  simp only [hostOps0, hostOps0_1]
  after_results_simp <;> rfl

/-- The target bond of every angle: the reference's `val_main_v3`. -/
theorem A_v7 (c : Dev nD) : @Eq (IVec S1600000 32) (W2 m ρ c (Proc.devRef .tc main_v7)) (Cert.ReferenceIdeal.Read.val_main_v3 (F := Ideal) (m ((c : Thread nD τ).loc main_arg3) : IVec S2x1600000 32)) := by
  show StableHlo.after hostOps0_1 (StableHlo.after hostOps0 (W0 m ρ c)) (Proc.devRef .tc main_v7) = _
  simp only [hostOps0, hostOps0_1]
  after_results_simp <;> rfl

/-- The arguments later stretches read are as launched. -/
theorem A_arg0 (c : Dev nD) : @Eq (FVec Ideal S50000x64 .f32) (W2 m ρ c (Proc.devRef .tc main_arg0)) (m ((c : Thread nD τ).loc main_arg0)) := by
  show StableHlo.after hostOps0_1 (StableHlo.after hostOps0 (W0 m ρ c)) (Proc.devRef .tc main_arg0) = _
  simp only [hostOps0, hostOps0_1]
  after_results_simp <;> rfl
theorem A_arg2 (c : Dev nD) : @Eq (IVec S2x800000 32) (W2 m ρ c (Proc.devRef .tc main_arg2)) (m ((c : Thread nD τ).loc main_arg2)) := by
  show StableHlo.after hostOps0_1 (StableHlo.after hostOps0 (W0 m ρ c)) (Proc.devRef .tc main_arg2) = _
  simp only [hostOps0, hostOps0_1]
  after_results_simp <;> rfl
theorem A_arg4 (c : Dev nD) : @Eq (IVec S50000 32) (W2 m ρ c (Proc.devRef .tc main_arg4)) (m ((c : Thread nD τ).loc main_arg4)) := by
  show StableHlo.after hostOps0_1 (StableHlo.after hostOps0 (W0 m ρ c)) (Proc.devRef .tc main_arg4) = _
  simp only [hostOps0, hostOps0_1]
  after_results_simp <;> rfl
theorem A_arg5 (c : Dev nD) : @Eq (FVec Ideal S800000x64 .f32) (W2 m ρ c (Proc.devRef .tc main_arg5)) (m ((c : Thread nD τ).loc main_arg5)) := by
  show StableHlo.after hostOps0_1 (StableHlo.after hostOps0 (W0 m ρ c)) (Proc.devRef .tc main_arg5) = _
  simp only [hostOps0, hostOps0_1]
  after_results_simp <;> rfl

/-! ## Across the first pallas_call: its output array is what the pipeline leaves, its inputs and every other buffer are kept -/

theorem B3_v17 (c : Dev nD) : W3 m ρ c (Proc.devRef .tc main_v17) = (dat0 (V2 m ρ) c).arrAt 5 cfg0.N := W3_arr m ρ c 5
theorem B3_v0 (c : Dev nD) : W3 m ρ c (Proc.devRef .tc main_v0) = W2 m ρ c (Proc.devRef .tc main_v0) :=
  (W3_arr m ρ c 1).trans (((dat0 (V2 m ρ) c).arrAt_in 1 rfl _).trans (A_eq0 (V2 m ρ) c 1))
theorem B3_v2 (c : Dev nD) : W3 m ρ c (Proc.devRef .tc main_v2) = W2 m ρ c (Proc.devRef .tc main_v2) :=
  (W3_arr m ρ c 2).trans (((dat0 (V2 m ρ) c).arrAt_in 2 rfl _).trans (A_eq0 (V2 m ρ) c 2))
theorem B3_v1 (c : Dev nD) : W3 m ρ c (Proc.devRef .tc main_v1) = W2 m ρ c (Proc.devRef .tc main_v1) :=
  (W3_arr m ρ c 3).trans (((dat0 (V2 m ρ) c).arrAt_in 3 rfl _).trans (A_eq0 (V2 m ρ) c 3))
theorem B3_v3 (c : Dev nD) : W3 m ρ c (Proc.devRef .tc main_v3) = W2 m ρ c (Proc.devRef .tc main_v3) :=
  (W3_arr m ρ c 4).trans (((dat0 (V2 m ρ) c).arrAt_in 4 rfl _).trans (A_eq0 (V2 m ρ) c 4))
theorem B3_v7 (c : Dev nD) : W3 m ρ c (Proc.devRef .tc main_v7) = W2 m ρ c (Proc.devRef .tc main_v7) := W3_of_ne m ρ c main_v7 (by decide)
theorem B3_arg0 (c : Dev nD) : W3 m ρ c (Proc.devRef .tc main_arg0) = W2 m ρ c (Proc.devRef .tc main_arg0) := W3_of_ne m ρ c main_arg0 (by decide)
theorem B3_arg2 (c : Dev nD) : W3 m ρ c (Proc.devRef .tc main_arg2) = W2 m ρ c (Proc.devRef .tc main_arg2) := W3_of_ne m ρ c main_arg2 (by decide)
theorem B3_arg4 (c : Dev nD) : W3 m ρ c (Proc.devRef .tc main_arg4) = W2 m ρ c (Proc.devRef .tc main_arg4) := W3_of_ne m ρ c main_arg4 (by decide)
theorem B3_arg5 (c : Dev nD) : W3 m ρ c (Proc.devRef .tc main_arg5) = W2 m ρ c (Proc.devRef .tc main_arg5) := W3_of_ne m ρ c main_arg5 (by decide)

/-! ## The middle stretch, from ANY entry contents `X`: what it leaves at the buffers later items read -/

/-- The atom features gathered at each bond's source atom: the reference's `val_main_v35`. -/
theorem M_v33 (X : Valuation τ sig (Elt Ideal)) :
    @Eq (FVec Ideal S800000x64 .f32) (StableHlo.after hostOps1 X (Proc.devRef .tc main_v33))
      (Cert.ReferenceIdeal.Read.val_main_v35 (F := Ideal) (X (Proc.devRef .tc main_arg0)) (X (Proc.devRef .tc main_arg2))) := by
  simp only [hostOps1]
  after_results_simp <;> rfl

/-- The updated bond features: the bond features plus, summed over the angles that target the bond, the kept rows of the
    first pallas_call's output. -/
theorem M_v22 (X : Valuation τ sig (Elt Ideal)) :
    @Eq (FVec Ideal S800000x64 .f32) (StableHlo.after hostOps1 X (Proc.devRef .tc main_v22))
      (addf (X (Proc.devRef .tc main_arg5) : FVec Ideal S800000x64 .f32)
        (Host.scatterAdd (F := Ideal) scatter_S800000x64_S1600000x1_S1600000x64_1_0_0_1
          (broadcastInDim S800000x64 ![] bcast_S_S800000x64 (constant (F := Ideal) S_ .f32 0x00000000#32))
          (broadcastInDim S1600000x1 ![0] bcast_S1600000_S1600000x1_0 (X (Proc.devRef .tc main_v7) : IVec S1600000 32))
          (extractStridedSlice S1600000x64 ![0, 0] (X (Proc.devRef .tc main_v17) : FVec Ideal S1605632x64 .f32) slices_S1605632x64_S1600000x64_0_0))) := by
  simp only [hostOps1]
  after_results_simp <;> rfl

/-- The padding value's integer. -/
theorem M_c4 (X : Valuation τ sig (Elt Ideal)) :
    @Eq (IVec S_ 32) (StableHlo.after hostOps1 X (Proc.devRef .tc main_c_4)) (constantI S_ 32 0#32) := by
  simp only [hostOps1]
  after_results_simp <;> rfl

/-- The two halves side by side. The stretch is cut before its last two operations (the concatenation and the padding
    value's constant), which write neither half. -/
theorem M_v34 (X : Valuation τ sig (Elt Ideal)) :
    @Eq (FVec Ideal S800000x128 .f32) (StableHlo.after hostOps1 X (Proc.devRef .tc main_v34))
      (concatenate S800000x128 1
        [⟨S800000x64, (StableHlo.after hostOps1 X (Proc.devRef .tc main_v33) : FVec Ideal S800000x64 .f32)⟩,
         ⟨S800000x64, (StableHlo.after hostOps1 X (Proc.devRef .tc main_v22) : FVec Ideal S800000x64 .f32)⟩]
        concatenates_S800000x64_S800000x64_S800000x128_d1) := by
  have hsplit : (hostOps1 : List (HloOp τ sig (Elt Ideal))) = hostOps1.take 19 ++ hostOps1.drop 19 :=
    (List.take_append_drop 19 _).symm
  rw [hsplit, StableHlo.after_append]
  generalize StableHlo.after (List.take 19 hostOps1) X = Y
  have h33 : StableHlo.after (List.drop 19 hostOps1) Y (Proc.devRef .tc main_v33) = Y (Proc.devRef .tc main_v33) := by
    simp only [hostOps1, List.drop_succ_cons, List.drop_zero]
    after_results_simp <;> rfl
  have h22 : StableHlo.after (List.drop 19 hostOps1) Y (Proc.devRef .tc main_v22) = Y (Proc.devRef .tc main_v22) := by
    simp only [hostOps1, List.drop_succ_cons, List.drop_zero]
    after_results_simp <;> rfl
  rw [h33, h22]
  simp only [hostOps1, List.drop_succ_cons, List.drop_zero]
  after_results_simp <;> rfl

/-- The target atom of every bond: the reference's `val_main_v28` of the first graph's edge list. -/
theorem M_v26 (X : Valuation τ sig (Elt Ideal)) :
    @Eq (IVec S800000 32) (StableHlo.after hostOps1 X (Proc.devRef .tc main_v26))
      (Cert.ReferenceIdeal.Read.val_main_v28 (F := Ideal) (X (Proc.devRef .tc main_arg2))) := by
  simp only [hostOps1]
  after_results_simp <;> rfl

/-- The weights, the biases and the graph index are not written. -/
theorem M_v0 (X : Valuation τ sig (Elt Ideal)) :
    @Eq (FVec Ideal S128x128 .bf16) (StableHlo.after hostOps1 X (Proc.devRef .tc main_v0)) (X (Proc.devRef .tc main_v0)) := by
  simp only [hostOps1]
  after_results_simp <;> rfl
theorem M_v1 (X : Valuation τ sig (Elt Ideal)) :
    @Eq (FVec Ideal S128x64 .bf16) (StableHlo.after hostOps1 X (Proc.devRef .tc main_v1)) (X (Proc.devRef .tc main_v1)) := by
  simp only [hostOps1]
  after_results_simp <;> rfl
theorem M_v2 (X : Valuation τ sig (Elt Ideal)) :
    @Eq (FVec Ideal S1x128 .f32) (StableHlo.after hostOps1 X (Proc.devRef .tc main_v2)) (X (Proc.devRef .tc main_v2)) := by
  simp only [hostOps1]
  after_results_simp <;> rfl
theorem M_v3 (X : Valuation τ sig (Elt Ideal)) :
    @Eq (FVec Ideal S1x64 .f32) (StableHlo.after hostOps1 X (Proc.devRef .tc main_v3)) (X (Proc.devRef .tc main_v3)) := by
  simp only [hostOps1]
  after_results_simp <;> rfl
theorem M_arg4 (X : Valuation τ sig (Elt Ideal)) :
    @Eq (IVec S50000 32) (StableHlo.after hostOps1 X (Proc.devRef .tc main_arg4)) (X (Proc.devRef .tc main_arg4)) := by
  simp only [hostOps1]
  after_results_simp <;> rfl

/-! ## The two padding operations before the second pallas_call, from ANY contents `Y` -/

/-- The second pallas_call's row input: the concatenated rows, padded with the converted constant to 802816 rows. -/
theorem P_v35 (Y : Valuation τ sig (Elt Ideal)) :
    @Eq (FVec Ideal S802816x128 .f32) (StableHlo.after hostOps1_1 Y (Proc.devRef .tc main_v35))
      (pad S802816x128 ![0, 0] ![2816, 0] ![0, 0] (Y (Proc.devRef .tc main_v34) : FVec Ideal S800000x128 .f32)
        (sitofp (F := Ideal) .f32 (Y (Proc.devRef .tc main_c_4) : IVec S_ 32) : FVec Ideal S_ .f32) pads_S800000x128_S802816x128_028160_000 h_S_) := by
  simp only [hostOps1_1]
  after_results_simp <;> rfl

theorem P_v0 (Y : Valuation τ sig (Elt Ideal)) :
    @Eq (FVec Ideal S128x128 .bf16) (StableHlo.after hostOps1_1 Y (Proc.devRef .tc main_v0)) (Y (Proc.devRef .tc main_v0)) := by
  simp only [hostOps1_1]
  after_results_simp <;> rfl
theorem P_v1 (Y : Valuation τ sig (Elt Ideal)) :
    @Eq (FVec Ideal S128x64 .bf16) (StableHlo.after hostOps1_1 Y (Proc.devRef .tc main_v1)) (Y (Proc.devRef .tc main_v1)) := by
  simp only [hostOps1_1]
  after_results_simp <;> rfl
theorem P_v2 (Y : Valuation τ sig (Elt Ideal)) :
    @Eq (FVec Ideal S1x128 .f32) (StableHlo.after hostOps1_1 Y (Proc.devRef .tc main_v2)) (Y (Proc.devRef .tc main_v2)) := by
  simp only [hostOps1_1]
  after_results_simp <;> rfl
theorem P_v3 (Y : Valuation τ sig (Elt Ideal)) :
    @Eq (FVec Ideal S1x64 .f32) (StableHlo.after hostOps1_1 Y (Proc.devRef .tc main_v3)) (Y (Proc.devRef .tc main_v3)) := by
  simp only [hostOps1_1]
  after_results_simp <;> rfl
theorem P_arg4 (Y : Valuation τ sig (Elt Ideal)) :
    @Eq (IVec S50000 32) (StableHlo.after hostOps1_1 Y (Proc.devRef .tc main_arg4)) (Y (Proc.devRef .tc main_arg4)) := by
  simp only [hostOps1_1]
  after_results_simp <;> rfl
theorem P_v26 (Y : Valuation τ sig (Elt Ideal)) :
    @Eq (IVec S800000 32) (StableHlo.after hostOps1_1 Y (Proc.devRef .tc main_v26)) (Y (Proc.devRef .tc main_v26)) := by
  simp only [hostOps1_1]
  after_results_simp <;> rfl

/-! ## Across the second pallas_call -/

theorem B6_v36 (c : Dev nD) : W6 m ρ c (Proc.devRef .tc main_v36) = (dat1 (V5 m ρ) c).arrAt 5 cfg1.N := W6_arr m ρ c 5
theorem B6_v26 (c : Dev nD) : W6 m ρ c (Proc.devRef .tc main_v26) = W5 m ρ c (Proc.devRef .tc main_v26) := W6_of_ne m ρ c main_v26 (by decide)
theorem B6_arg4 (c : Dev nD) : W6 m ρ c (Proc.devRef .tc main_arg4) = W5 m ρ c (Proc.devRef .tc main_arg4) := W6_of_ne m ρ c main_arg4 (by decide)

/-! ## The last stretch, from ANY entry contents `X` -/

/-- The result: half the sum over each graph's atoms of the sum over each atom's incoming bonds of the kept rows of the second
    pallas_call's output. -/
theorem C_v45 (X : Valuation τ sig (Elt Ideal)) :
    @Eq (FVec Ideal S256x64 .f32) (StableHlo.after hostOps2 X (Proc.devRef .tc main_v45))
      (Host.divf (F := Ideal)
        (Host.scatterAdd (F := Ideal) scatter_S256x64_S50000x1_S50000x64_1_0_0_1
          (broadcastInDim S256x64 ![] bcast_S_S256x64 (constant (F := Ideal) S_ .f32 0x00000000#32))
          (broadcastInDim S50000x1 ![0] bcast_S50000_S50000x1_0 (X (Proc.devRef .tc main_arg4) : IVec S50000 32))
          (Host.scatterAdd (F := Ideal) scatter_S50000x64_S800000x1_S800000x64_1_0_0_1
            (broadcastInDim S50000x64 ![] bcast_S_S50000x64 (constant (F := Ideal) S_ .f32 0x00000000#32))
            (broadcastInDim S800000x1 ![0] bcast_S800000_S800000x1_0 (X (Proc.devRef .tc main_v26) : IVec S800000 32))
            (extractStridedSlice S800000x64 ![0, 0] (X (Proc.devRef .tc main_v36) : FVec Ideal S802816x64 .f32) slices_S802816x64_S800000x64_0_0)))
        (broadcastInDim S256x64 ![] bcast_S_S256x64 (constant (F := Ideal) S_ .f32 0x40000000#32))) := by
  simp only [hostOps2]
  after_results_simp <;> rfl

/-! ## The second pallas_call's entry contents, by name -/

theorem W5_v0 (c : Dev nD) : @Eq (FVec Ideal S128x128 .bf16) (W5 m ρ c (Proc.devRef .tc main_v0)) (truncf .bf16 (m ((c : Thread nD τ).loc main_arg7) : FVec Ideal S128x128 .f32) bitsLt_bf16_f32) :=
  (P_v0 (W4 m ρ c)).trans ((M_v0 (W3 m ρ c)).trans ((B3_v0 m ρ c).trans (A_v0 m ρ c)))
theorem W5_v1 (c : Dev nD) : @Eq (FVec Ideal S128x64 .bf16) (W5 m ρ c (Proc.devRef .tc main_v1)) (truncf .bf16 (m ((c : Thread nD τ).loc main_arg9) : FVec Ideal S128x64 .f32) bitsLt_bf16_f32) :=
  (P_v1 (W4 m ρ c)).trans ((M_v1 (W3 m ρ c)).trans ((B3_v1 m ρ c).trans (A_v1 m ρ c)))
theorem W5_v2 (c : Dev nD) : @Eq (FVec Ideal S1x128 .f32) (W5 m ρ c (Proc.devRef .tc main_v2)) (shapeCast S1x128 (m ((c : Thread nD τ).loc main_arg8) : FVec Ideal S128 .f32) shapeCasts_S128_S1x128) :=
  (P_v2 (W4 m ρ c)).trans ((M_v2 (W3 m ρ c)).trans ((B3_v2 m ρ c).trans (A_v2 m ρ c)))
theorem W5_v3 (c : Dev nD) : @Eq (FVec Ideal S1x64 .f32) (W5 m ρ c (Proc.devRef .tc main_v3)) (shapeCast S1x64 (m ((c : Thread nD τ).loc main_arg10) : FVec Ideal S64 .f32) shapeCasts_S64_S1x64) :=
  (P_v3 (W4 m ρ c)).trans ((M_v3 (W3 m ρ c)).trans ((B3_v3 m ρ c).trans (A_v3 m ρ c)))
theorem W5_arg4 (c : Dev nD) : W5 m ρ c (Proc.devRef .tc main_arg4) = m ((c : Thread nD τ).loc main_arg4) :=
  (P_arg4 (W4 m ρ c)).trans ((M_arg4 (W3 m ρ c)).trans ((B3_arg4 m ρ c).trans (A_arg4 m ρ c)))
theorem W5_v26 (c : Dev nD) : @Eq (IVec S800000 32) (W5 m ρ c (Proc.devRef .tc main_v26)) (Cert.ReferenceIdeal.Read.val_main_v28 (F := Ideal) (m ((c : Thread nD τ).loc main_arg2) : IVec S2x800000 32)) := by
  refine (P_v26 (W4 m ρ c)).trans ((M_v26 (W3 m ρ c)).trans ?_)
  rw [B3_arg2, A_arg2]

/-- The kept rows of the first pallas_call's output are the reference's first perceptron stage. -/
theorem kept0 (c : Dev nD) :
    @Eq (FVec Ideal S1600000x64 .f32)
      (extractStridedSlice S1600000x64 ![0, 0] (W3 m ρ c (Proc.devRef .tc main_v17) : FVec Ideal S1605632x64 .f32) slices_S1605632x64_S1600000x64_0_0)
      (Cert.ReferenceIdeal.Read.val_main_v20 (F := Ideal) (m ((c : Thread nD τ).loc main_arg1) : FVec Ideal S800000x64 .f32) (m ((c : Thread nD τ).loc main_arg3) : IVec S2x1600000 32) (m ((c : Thread nD τ).loc main_arg6) : FVec Ideal S1600000x64 .f32) (m ((c : Thread nD τ).loc main_arg7) : FVec Ideal S128x128 .f32) (m ((c : Thread nD τ).loc main_arg8) : FVec Ideal S128 .f32) (m ((c : Thread nD τ).loc main_arg9) : FVec Ideal S128x64 .f32) (m ((c : Thread nD τ).loc main_arg10) : FVec Ideal S64 .f32)) := by
  rw [B3_v17, Region0.final (V2 m ρ) c]
  show extractStridedSlice S1600000x64 ![0, 0]
    (Region0.rows (W2 m ρ c (Proc.devRef .tc main_v16)) (W2 m ρ c (Proc.devRef .tc main_v0)) (W2 m ρ c (Proc.devRef .tc main_v2)) (W2 m ρ c (Proc.devRef .tc main_v1)) (W2 m ρ c (Proc.devRef .tc main_v3)))
    slices_S1605632x64_S1600000x64_0_0 = _
  rw [A_v16, A_v0, A_v2, A_v1, A_v3]
  exact Slices.slice0_eq _ _ _ _ _ _ _ _

/-- The reference's concatenated rows `val_main_v36` are its gathered atom features beside its updated bond features. -/
theorem v36_unfold (x0 : FVec Ideal S50000x64 .f32) (x1 : FVec Ideal S800000x64 .f32) (x2 : IVec S2x800000 32) (x3 : IVec S2x1600000 32)
    (x5 : FVec Ideal S800000x64 .f32) (x6 : FVec Ideal S1600000x64 .f32) (x7 : FVec Ideal S128x128 .f32) (x8 : FVec Ideal S128 .f32)
    (x9 : FVec Ideal S128x64 .f32) (x10 : FVec Ideal S64 .f32) :
    @Eq (FVec Ideal S800000x128 .f32)
      (concatenate S800000x128 1
        [⟨S800000x64, (Cert.ReferenceIdeal.Read.val_main_v35 (F := Ideal) x0 x2 : FVec Ideal S800000x64 .f32)⟩,
         ⟨S800000x64, (addf x5
            (Host.scatterAdd (F := Ideal) scatter_S800000x64_S1600000x1_S1600000x64_1_0_0_1
              (broadcastInDim S800000x64 ![] bcast_S_S800000x64 (constant (F := Ideal) S_ .f32 0x00000000#32))
              (broadcastInDim S1600000x1 ![0] bcast_S1600000_S1600000x1_0 (Cert.ReferenceIdeal.Read.val_main_v3 (F := Ideal) x3 : IVec S1600000 32))
              (Cert.ReferenceIdeal.Read.val_main_v20 (F := Ideal) x1 x3 x6 x7 x8 x9 x10 : FVec Ideal S1600000x64 .f32)) : FVec Ideal S800000x64 .f32)⟩]
        concatenates_S800000x64_S800000x64_S800000x128_d1)
      (Cert.ReferenceIdeal.Read.val_main_v36 (F := Ideal) x0 x1 x2 x3 x5 x6 x7 x8 x9 x10) := by
  unfold Cert.ReferenceIdeal.Read.val_main_v36 Cert.ReferenceIdeal.Read.val_main_v24 Cert.ReferenceIdeal.Read.val_main_v23 Cert.ReferenceIdeal.Read.val_main_v22 Cert.ReferenceIdeal.Read.val_main_v21 Cert.ReferenceIdeal.Read.val_main_cst
  rfl

/-- The concatenated rows the middle stretch builds are the reference's `val_main_v36`. -/
theorem rows1_eq (c : Dev nD) :
    @Eq (FVec Ideal S800000x128 .f32) (W4 m ρ c (Proc.devRef .tc main_v34)) (Cert.ReferenceIdeal.Read.val_main_v36 (F := Ideal) (m ((c : Thread nD τ).loc main_arg0) : FVec Ideal S50000x64 .f32) (m ((c : Thread nD τ).loc main_arg1) : FVec Ideal S800000x64 .f32) (m ((c : Thread nD τ).loc main_arg2) : IVec S2x800000 32) (m ((c : Thread nD τ).loc main_arg3) : IVec S2x1600000 32) (m ((c : Thread nD τ).loc main_arg5) : FVec Ideal S800000x64 .f32) (m ((c : Thread nD τ).loc main_arg6) : FVec Ideal S1600000x64 .f32) (m ((c : Thread nD τ).loc main_arg7) : FVec Ideal S128x128 .f32) (m ((c : Thread nD τ).loc main_arg8) : FVec Ideal S128 .f32) (m ((c : Thread nD τ).loc main_arg9) : FVec Ideal S128x64 .f32) (m ((c : Thread nD τ).loc main_arg10) : FVec Ideal S64 .f32)) := by
  have h := M_v34 (W3 m ρ c)
  rw [M_v33 (W3 m ρ c), M_v22 (W3 m ρ c), B3_arg0, A_arg0, B3_arg2, A_arg2, B3_arg5, A_arg5, B3_v7, A_v7, kept0] at h
  exact h.trans (v36_unfold _ _ _ _ _ _ _ _ _ _)

/-- The second pallas_call's row input is the reference's concatenated rows `val_main_v36`, zero-padded. -/
theorem W5_v35 (c : Dev nD) :
    @Eq (FVec Ideal S802816x128 .f32) (W5 m ρ c (Proc.devRef .tc main_v35))
      (pad S802816x128 ![0, 0] ![2816, 0] ![0, 0] (Cert.ReferenceIdeal.Read.val_main_v36 (F := Ideal) (m ((c : Thread nD τ).loc main_arg0) : FVec Ideal S50000x64 .f32) (m ((c : Thread nD τ).loc main_arg1) : FVec Ideal S800000x64 .f32) (m ((c : Thread nD τ).loc main_arg2) : IVec S2x800000 32) (m ((c : Thread nD τ).loc main_arg3) : IVec S2x1600000 32) (m ((c : Thread nD τ).loc main_arg5) : FVec Ideal S800000x64 .f32) (m ((c : Thread nD τ).loc main_arg6) : FVec Ideal S1600000x64 .f32) (m ((c : Thread nD τ).loc main_arg7) : FVec Ideal S128x128 .f32) (m ((c : Thread nD τ).loc main_arg8) : FVec Ideal S128 .f32) (m ((c : Thread nD τ).loc main_arg9) : FVec Ideal S128x64 .f32) (m ((c : Thread nD τ).loc main_arg10) : FVec Ideal S64 .f32) : FVec Ideal S800000x128 .f32)
        (sitofp (F := Ideal) .f32 (constantI S_ 32 0#32) : FVec Ideal S_ .f32) pads_S800000x128_S802816x128_028160_000 h_S_) := by
  have h := P_v35 (W4 m ρ c)
  rw [rows1_eq, show W4 m ρ c (Proc.devRef .tc main_c_4) = _ from M_c4 (W3 m ρ c)] at h
  exact h

/-- The kept rows of the second pallas_call's output are the reference's second perceptron stage. -/
theorem kept1 (c : Dev nD) :
    @Eq (FVec Ideal S800000x64 .f32)
      (extractStridedSlice S800000x64 ![0, 0] (W6 m ρ c (Proc.devRef .tc main_v36) : FVec Ideal S802816x64 .f32) slices_S802816x64_S800000x64_0_0)
      (Cert.ReferenceIdeal.Read.val_main_v45 (F := Ideal) (m ((c : Thread nD τ).loc main_arg0) : FVec Ideal S50000x64 .f32) (m ((c : Thread nD τ).loc main_arg1) : FVec Ideal S800000x64 .f32) (m ((c : Thread nD τ).loc main_arg2) : IVec S2x800000 32) (m ((c : Thread nD τ).loc main_arg3) : IVec S2x1600000 32) (m ((c : Thread nD τ).loc main_arg5) : FVec Ideal S800000x64 .f32) (m ((c : Thread nD τ).loc main_arg6) : FVec Ideal S1600000x64 .f32) (m ((c : Thread nD τ).loc main_arg7) : FVec Ideal S128x128 .f32) (m ((c : Thread nD τ).loc main_arg8) : FVec Ideal S128 .f32) (m ((c : Thread nD τ).loc main_arg9) : FVec Ideal S128x64 .f32) (m ((c : Thread nD τ).loc main_arg10) : FVec Ideal S64 .f32)) := by
  rw [B6_v36, Region1.final (V5 m ρ) c]
  show extractStridedSlice S800000x64 ![0, 0]
    (Region1.rows (W5 m ρ c (Proc.devRef .tc main_v35)) (W5 m ρ c (Proc.devRef .tc main_v0)) (W5 m ρ c (Proc.devRef .tc main_v2)) (W5 m ρ c (Proc.devRef .tc main_v1)) (W5 m ρ c (Proc.devRef .tc main_v3)))
    slices_S802816x64_S800000x64_0_0 = _
  rw [W5_v35, W5_v0, W5_v2, W5_v1, W5_v3]
  exact Slices.slice1_eq _ _ _ _ _ _ _ _ _ _ _

/-- The reference's result term is half the pooled sum of its second perceptron stage. -/
theorem v53_unfold (x0 : FVec Ideal S50000x64 .f32) (x1 : FVec Ideal S800000x64 .f32) (x2 : IVec S2x800000 32) (x3 : IVec S2x1600000 32)
    (x4 : IVec S50000 32) (x5 : FVec Ideal S800000x64 .f32) (x6 : FVec Ideal S1600000x64 .f32) (x7 : FVec Ideal S128x128 .f32)
    (x8 : FVec Ideal S128 .f32) (x9 : FVec Ideal S128x64 .f32) (x10 : FVec Ideal S64 .f32) :
    @Eq (FVec Ideal S256x64 .f32)
      (Host.divf (F := Ideal)
        (Host.scatterAdd (F := Ideal) scatter_S256x64_S50000x1_S50000x64_1_0_0_1
          (broadcastInDim S256x64 ![] bcast_S_S256x64 (constant (F := Ideal) S_ .f32 0x00000000#32))
          (broadcastInDim S50000x1 ![0] bcast_S50000_S50000x1_0 x4)
          (Host.scatterAdd (F := Ideal) scatter_S50000x64_S800000x1_S800000x64_1_0_0_1
            (broadcastInDim S50000x64 ![] bcast_S_S50000x64 (constant (F := Ideal) S_ .f32 0x00000000#32))
            (broadcastInDim S800000x1 ![0] bcast_S800000_S800000x1_0 (Cert.ReferenceIdeal.Read.val_main_v28 (F := Ideal) x2 : IVec S800000 32))
            (Cert.ReferenceIdeal.Read.val_main_v45 (F := Ideal) x0 x1 x2 x3 x5 x6 x7 x8 x9 x10 : FVec Ideal S800000x64 .f32)))
        (broadcastInDim S256x64 ![] bcast_S_S256x64 (constant (F := Ideal) S_ .f32 0x40000000#32)))
      (Cert.ReferenceIdeal.Read.val_main_v53 (F := Ideal) x0 x1 x2 x3 x4 x5 x6 x7 x8 x9 x10) := by
  unfold Cert.ReferenceIdeal.Read.val_main_v53 Cert.ReferenceIdeal.Read.val_main_v52 Cert.ReferenceIdeal.Read.val_main_cst_5 Cert.ReferenceIdeal.Read.val_main_v51 Cert.ReferenceIdeal.Read.val_main_v50 Cert.ReferenceIdeal.Read.val_main_v49 Cert.ReferenceIdeal.Read.val_main_cst_4
    Cert.ReferenceIdeal.Read.val_main_v48 Cert.ReferenceIdeal.Read.val_main_v47 Cert.ReferenceIdeal.Read.val_main_v46 Cert.ReferenceIdeal.Read.val_main_cst_3
  rfl

/-- THE RESULT BUFFER after the run is the reference's result term of the same arguments. -/
theorem result_eq (c : Dev nD) :
    @Eq (FVec Ideal S256x64 .f32) (W7 m ρ c (Proc.devRef .tc main_v45))
      (Cert.ReferenceIdeal.Read.val_main_v53 (F := Ideal) (m ((c : Thread nD τ).loc main_arg0) : FVec Ideal S50000x64 .f32) (m ((c : Thread nD τ).loc main_arg1) : FVec Ideal S800000x64 .f32) (m ((c : Thread nD τ).loc main_arg2) : IVec S2x800000 32) (m ((c : Thread nD τ).loc main_arg3) : IVec S2x1600000 32) (m ((c : Thread nD τ).loc main_arg4) : IVec S50000 32) (m ((c : Thread nD τ).loc main_arg5) : FVec Ideal S800000x64 .f32) (m ((c : Thread nD τ).loc main_arg6) : FVec Ideal S1600000x64 .f32) (m ((c : Thread nD τ).loc main_arg7) : FVec Ideal S128x128 .f32) (m ((c : Thread nD τ).loc main_arg8) : FVec Ideal S128 .f32) (m ((c : Thread nD τ).loc main_arg9) : FVec Ideal S128x64 .f32) (m ((c : Thread nD τ).loc main_arg10) : FVec Ideal S64 .f32)) := by
  have h := C_v45 (W6 m ρ c)
  rw [B6_arg4, W5_arg4, B6_v26, W5_v26, kept1] at h
  exact h.trans (v53_unfold _ _ _ _ _ _ _ _ _ _ _)

end Cert.KernelIdeal.Fold

end
-- ==== Proof.lean ====
/-
  The certificate of one two-layer-perceptron message-passing kernel against its jnp reference.

  Both programs compute, from two graphs' node and edge features, a pooled readout: messages along the second graph's edges
  (a perceptron on gathered-and-concatenated rows) are summed into the first graph's edge features; messages along the
  first graph's edges (the same perceptron on rows built from those) are summed into its nodes, the nodes into their graphs,
  and the result is halved. The kernel runs the perceptron in two pallas_calls over 8192-row blocks of the zero-padded rows,
  with bf16 operands on the matrix unit; the reference runs it as two `dot_general`s over all rows. Everything else is the
  same host operation on both sides.

  On the extended reals the two agree exactly: narrowing to bf16 is the identity, a matrix product into a zero accumulator
  and a `dot_general` are the same sum over the contracted coordinate, a kept output row depends only on the same input row,
  and the padding rows are cut away. No law that needs finite inputs is used.

  • the three frames: the two kernel programs' are the generated frame certificates; the reference's is its generated run;
  • `preserves`: the idealized kernel is the kernel's own text (no rewrite);
  • `algebraic`: the kernel program's run with its result buffer named (MainRun.lean), that buffer read back through the
    host stretches and the two pallas_calls as the reference's result term (KernelValue.lean), and the reference's run.
-/
import proofs.«107612_j41240275976362_1_alg».proof.Defs
import proofs.«107612_j41240275976362_1_alg».proof.Proof.Gen.Kernel
import proofs.«107612_j41240275976362_1_alg».proof.Proof.Gen.Kernel.Skeleton
import proofs.«107612_j41240275976362_1_alg».proof.Proof.Gen.Kernel.Launch
import proofs.«107612_j41240275976362_1_alg».proof.Proof.Gen.Kernel.Points
import proofs.«107612_j41240275976362_1_alg».proof.Proof.Gen.Kernel.Frame
import proofs.«107612_j41240275976362_1_alg».proof.Proof.Gen.KernelIdeal
import proofs.«107612_j41240275976362_1_alg».proof.Proof.Gen.KernelIdeal.Skeleton
import proofs.«107612_j41240275976362_1_alg».proof.Proof.Gen.KernelIdeal.Launch
import proofs.«107612_j41240275976362_1_alg».proof.Proof.Gen.KernelIdeal.Points
import proofs.«107612_j41240275976362_1_alg».proof.Proof.Gen.KernelIdeal.Frame
import proofs.«107612_j41240275976362_1_alg».proof.Proof.Gen.ReferenceIdeal
import proofs.«107612_j41240275976362_1_alg».proof.Proof.Gen.Pre_finite_inputs
import proofs.«107612_j41240275976362_1_alg».proof.Proof.Gen.ReferenceIdeal.Run
import proofs.«107612_j41240275976362_1_alg».proof.Proof.Gen.ReferenceIdeal.Read
import proofs.«107612_j41240275976362_1_alg».proof.Proof.MainRun
import proofs.«107612_j41240275976362_1_alg».proof.Proof.KernelValue
import Idealize.ShloMosaic.Adequacy
import Idealize.ShloMosaic.Init

noncomputable section

namespace Cert.Proof

open Idealize.ShloMosaic Idealize.SL.Sem

/-- The kernel as printed runs and leaves its arguments: the generated frame certificate. -/
theorem frame_kernel : Cert.frame_Kernel := fun m ρ _ => Cert.Kernel.Gen.frame m ρ

/-- The idealized kernel runs and leaves its arguments: the generated frame certificate. -/
theorem frame_kernelIdeal : Cert.frame_KernelIdeal := fun m ρ _ => Cert.KernelIdeal.Gen.frame m ρ

/-- The reference runs and leaves its arguments: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the arguments both programs end with the same result array: the kernel program's result
    buffer, read back through its run, is the reference's result term of the same arguments. -/
theorem algebraic : Cert.algebraic_KernelIdeal_ReferenceIdeal := by
  intro m ρ m' ρ' _ hagree
  refine ⟨fun c => Cert.KernelIdeal.Gen.W7 m ρ c (Proc.devRef .tc Cert.KernelIdeal.main_v45),
    Cert.KernelIdeal.Gen.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v53_eq, h0, h1, h2, h3, h4, h5, h6, h7, h8, h9, h10]
  exact (Cert.KernelIdeal.Fold.result_eq m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
